-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x131072x3 : Shape := ⟨3, ![2, 131072, 3]⟩
abbrev S2x512 : Shape := ⟨2, ![2, 512]⟩
abbrev S_ : Shape := ⟨0, ![]⟩

class Facts : Prop where
  bcast_S_S2x131072x3 : S_.BroadcastsInDim S2x131072x3 (![] : Fin 0 → Fin S2x131072x3.rank)
  reducesTo_S2x131072x3_S_d0_1_2 : S2x131072x3.ReducesTo [0, 1, 2] S_
  h_S_ : 0 < S_.numel
  bcast_S_S2x512 : S_.BroadcastsInDim S2x512 (![] : Fin 0 → Fin S2x512.rank)
  reducesTo_S2x512_S_d0_1 : S2x512.ReducesTo [0, 1] S_

variable [Facts]

def fn {F : FTy → Type} [FloatOps F] (main_arg0 : FVec F S2x131072x3 .f32) (main_arg1 : IVec S2x512 32) : IVec S_ 1 :=
  let main_v0 : FVec F S2x131072x3 .f32 := Host.absf main_arg0
  let main_cst : FVec F S_ .f32 := constant S_ .f32 0x7F800000#32
  let main_v1 : FVec F S2x131072x3 .f32 := broadcastInDim S2x131072x3 ![] bcast_S_S2x131072x3 main_cst
  let main_v2 : IVec S2x131072x3 1 := cmpf .olt main_v0 main_v1
  let main_c : IVec S_ 1 := constantI S_ 1 1#1
  let main_v3 : IVec S_ 1 := (fun x v => Host.reduce IntOp.andi x v reducesTo_S2x131072x3_S_d0_1_2 h_S_) main_v2 main_c
  let main_c_0 : IVec S_ 32 := constantI S_ 32 4294836224#32
  let main_v4 : IVec S2x512 32 := broadcastInDim S2x512 ![] bcast_S_S2x512 main_c_0
  let main_v5 : IVec S2x512 1 := cmpi .sge main_arg1 main_v4
  let main_c_1 : IVec S_ 32 := constantI S_ 32 131072#32
  let main_v6 : IVec S2x512 32 := broadcastInDim S2x512 ![] bcast_S_S2x512 main_c_1
  let main_v7 : IVec S2x512 1 := cmpi .slt main_arg1 main_v6
  let main_v8 : IVec S2x512 1 := andi main_v5 main_v7
  let main_c_2 : IVec S_ 1 := constantI S_ 1 1#1
  let main_v9 : IVec S_ 1 := (fun x v => Host.reduce IntOp.andi x v reducesTo_S2x512_S_d0_1 h_S_) main_v8 main_c_2
  let main_v10 : IVec S_ 1 := andi main_v3 main_v9
  main_v10
-- ==== Kernel.lean ====
abbrev S2x131072x3 : Shape := ⟨3, ![2, 131072, 3]⟩
abbrev S2x512 : Shape := ⟨2, ![2, 512]⟩
abbrev S_ : Shape := ⟨0, ![]⟩
abbrev S2x3 : Shape := ⟨2, ![2, 3]⟩
abbrev S2x1x3 : Shape := ⟨3, ![2, 1, 3]⟩
abbrev S2x131072x1 : Shape := ⟨3, ![2, 131072, 1]⟩
abbrev S2x131072 : Shape := ⟨2, ![2, 131072]⟩
abbrev S2x512x1 : Shape := ⟨3, ![2, 512, 1]⟩
abbrev S1 : Shape := ⟨1, ![1]⟩
abbrev S1x1x1 : Shape := ⟨3, ![1, 1, 1]⟩
abbrev S2x1x512 : Shape := ⟨3, ![2, 1, 512]⟩
abbrev S2x512x12 : Shape := ⟨3, ![2, 512, 12]⟩
abbrev S1x2048x3 : Shape := ⟨3, ![1, 2048, 3]⟩
abbrev S1x2048x1 : Shape := ⟨3, ![1, 2048, 1]⟩
abbrev S1x1x512 : Shape := ⟨3, ![1, 1, 512]⟩
abbrev S1x512x12 : Shape := ⟨3, ![1, 512, 12]⟩
abbrev S512x13 : Shape := ⟨2, ![512, 13]⟩
abbrev S2048x3 : Shape := ⟨2, ![2048, 3]⟩
abbrev S2048x1 : Shape := ⟨2, ![2048, 1]⟩
abbrev S1x512 : Shape := ⟨2, ![1, 512]⟩
abbrev S2048x512 : Shape := ⟨2, ![2048, 512]⟩
abbrev S2048x13 : Shape := ⟨2, ![2048, 13]⟩
abbrev S512x1 : Shape := ⟨2, ![512, 1]⟩
abbrev S512x3 : Shape := ⟨2, ![512, 3]⟩
abbrev S512x9 : Shape := ⟨2, ![512, 9]⟩
abbrev S512x12 : Shape := ⟨2, ![512, 12]⟩

abbrev nBuf : Space → Nat
  | .hbm => 59
  | .vmem => 9
  | .smem => 0
  | _ => 0

abbrev bufTy : (tb : Table) → Fin (tcTables nBuf tb) → BufTy
  | .hbm, ⟨0, _⟩ => ⟨S2x131072x3, .f32⟩
  | .hbm, ⟨1, _⟩ => ⟨S2x512, .i32⟩
  | .hbm, ⟨2, _⟩ => ⟨S_, .f32⟩
  | .hbm, ⟨3, _⟩ => ⟨S2x3, .f32⟩
  | .hbm, ⟨4, _⟩ => ⟨S2x1x3, .f32⟩
  | .hbm, ⟨5, _⟩ => ⟨S2x131072x3, .f32⟩
  | .hbm, ⟨6, _⟩ => ⟨S2x131072x3, .f32⟩
  | .hbm, ⟨7, _⟩ => ⟨S_, .f32⟩
  | .hbm, ⟨8, _⟩ => ⟨S2x131072x3, .f32⟩
  | .hbm, ⟨9, _⟩ => ⟨S2x131072x3, .f32⟩
  | .hbm, ⟨10, _⟩ => ⟨S2x131072x3, .f32⟩
  | .hbm, ⟨11, _⟩ => ⟨S2x131072x3, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2x131072x3, .i32⟩
  | .hbm, ⟨16, _⟩ => ⟨S2x131072x3, .i32⟩
  | .hbm, ⟨17, _⟩ => ⟨S_, .i32⟩
  | .hbm, ⟨18, _⟩ => ⟨S2x131072x3, .i32⟩
  | .hbm, ⟨19, _⟩ => ⟨S2x131072x3, .i32⟩
  | .hbm, ⟨20, _⟩ => ⟨S2x131072x1, .i32⟩
  | .hbm, ⟨21, _⟩ => ⟨S2x131072, .i32⟩
  | .hbm, ⟨22, _⟩ => ⟨S_, .i32⟩
  | .hbm, ⟨23, _⟩ => ⟨S2x131072, .i32⟩
  | .hbm, ⟨24, _⟩ => ⟨S2x131072, .i32⟩
  | .hbm, ⟨25, _⟩ => ⟨S2x131072x1, .i32⟩
  | .hbm, ⟨26, _⟩ => ⟨S2x131072, .i32⟩
  | .hbm, ⟨27, _⟩ => ⟨S2x131072, .i32⟩
  | .hbm, ⟨28, _⟩ => ⟨S_, .i32⟩
  | .hbm, ⟨29, _⟩ => ⟨S2x131072, .i32⟩
  | .hbm, ⟨30, _⟩ => ⟨S2x131072, .i32⟩
  | .hbm, ⟨31, _⟩ => ⟨S2x131072x1, .i32⟩
  | .hbm, ⟨32, _⟩ => ⟨S2x131072, .i32⟩
  | .hbm, ⟨33, _⟩ => ⟨S2x131072, .i32⟩
  | .hbm, ⟨34, _⟩ => ⟨S_, .i32⟩
  | .hbm, ⟨35, _⟩ => ⟨S2x512, .i32⟩
  | .hbm, ⟨36, _⟩ => ⟨S2x512, .i1⟩
  | .hbm, ⟨37, _⟩ => ⟨S_, .i32⟩
  | .hbm, ⟨38, _⟩ => ⟨S2x512, .i32⟩
  | .hbm, ⟨39, _⟩ => ⟨S2x512, .i32⟩
  | .hbm, ⟨40, _⟩ => ⟨S2x512, .i32⟩
  | .hbm, ⟨41, _⟩ => ⟨S2x512x1, .i32⟩
  | .hbm, ⟨42, _⟩ => ⟨S1, .i32⟩
  | .hbm, ⟨43, _⟩ => ⟨S_, .i32⟩
  | .hbm, ⟨44, _⟩ => ⟨S2x512x1, .i32⟩
  | .hbm, ⟨45, _⟩ => ⟨S2x512x1, .i1⟩
  | .hbm, ⟨46, _⟩ => ⟨S1x1x1, .i32⟩
  | .hbm, ⟨47, _⟩ => ⟨S2x512x1, .i32⟩
  | .hbm, ⟨48, _⟩ => ⟨S2x512x1, .i1⟩
  | .hbm, ⟨49, _⟩ => ⟨S2x512x1, .i1⟩
  | .hbm, ⟨50, _⟩ => ⟨S_, .i1⟩
  | .hbm, ⟨51, _⟩ => ⟨S2x512, .i1⟩
  | .hbm, ⟨52, _⟩ => ⟨S2x512, .i32⟩
  | .hbm, ⟨53, _⟩ => ⟨S_, .i32⟩
  | .hbm, ⟨54, _⟩ => ⟨S2x512, .i32⟩
  | .hbm, ⟨55, _⟩ => ⟨S2x512, .i32⟩
  | .hbm, ⟨56, _⟩ => ⟨S2x131072x1, .i32⟩
  | .hbm, ⟨57, _⟩ => ⟨S2x1x512, .i32⟩
  | .hbm, ⟨58, _⟩ => ⟨S2x512x12, .f32⟩
  | .local _ .vmem, ⟨0, _⟩ => ⟨S1x2048x3, .f32⟩
  | .local _ .vmem, ⟨1, _⟩ => ⟨S1x2048x3, .f32⟩
  | .local _ .vmem, ⟨2, _⟩ => ⟨S1x2048x1, .i32⟩
  | .local _ .vmem, ⟨3, _⟩ => ⟨S1x2048x1, .i32⟩
  | .local _ .vmem, ⟨4, _⟩ => ⟨S1x1x512, .i32⟩
  | .local _ .vmem, ⟨5, _⟩ => ⟨S1x1x512, .i32⟩
  | .local _ .vmem, ⟨6, _⟩ => ⟨S1x512x12, .f32⟩
  | .local _ .vmem, ⟨7, _⟩ => ⟨S1x512x12, .f32⟩
  | .local _ .vmem, ⟨8, _⟩ => ⟨S512x13, .f32⟩
  | _, _ => ⟨S2x131072x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_c_4 : Ref sig .tc := ⟨.hbm, 53, rfl⟩
abbrev main_call1_v14 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v34 : BitVec 1 := Scalar.cmpi .eq arg1 c63_i32
  let v35 : BitVec 32 := Scalar.extui v34
  let c0_i32_14 : BitVec 32 := 0#32
  let v36 : BitVec 1 := Scalar.cmpi .ne v35 c0_i32_14
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x12 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  reducesTo_S2x131072x3_S2x3_d1 : S2x131072x3.ReducesTo [1] S2x3
  h_S_ : 0 < S_.numel
  bcast_S2x3_S2x1x3_0_2 : S2x3.BroadcastsInDim S2x1x3 (![0, 2] : Fin 2 → Fin S2x1x3.rank)
  bcast_S2x1x3_S2x131072x3_0_1_2 : S2x1x3.BroadcastsInDim S2x131072x3 (![0, 1, 2] : Fin 3 → Fin S2x131072x3.rank)
  bcast_S_S2x131072x3 : S_.BroadcastsInDim S2x131072x3 (![] : Fin 0 → Fin S2x131072x3.rank)
  slices_S2x131072x3_S2x131072x1_0_0_0 : S2x131072x3.Slices ![0, 0, 0] S2x131072x1
  shapeCasts_S2x131072x1_S2x131072 : S2x131072x1.ShapeCasts S2x131072
  bcast_S_S2x131072 : S_.BroadcastsInDim S2x131072 (![] : Fin 0 → Fin S2x131072.rank)
  slices_S2x131072x3_S2x131072x1_0_0_1 : S2x131072x3.Slices ![0, 0, 1] S2x131072x1
  slices_S2x131072x3_S2x131072x1_0_0_2 : S2x131072x3.Slices ![0, 0, 2] S2x131072x1
  bcast_S_S2x512 : S_.BroadcastsInDim S2x512 (![] : Fin 0 → Fin S2x512.rank)
  shapeCasts_S2x512_S2x512x1 : S2x512.ShapeCasts S2x512x1
  bcast_S_S2x512x1 : S_.BroadcastsInDim S2x512x1 (![] : Fin 0 → Fin S2x512x1.rank)
  bcast_S1_S1x1x1_2 : S1.BroadcastsInDim S1x1x1 (![2] : Fin 1 → Fin S1x1x1.rank)
  bcast_S1x1x1_S2x512x1_0_1_2 : S1x1x1.BroadcastsInDim S2x512x1 (![0, 1, 2] : Fin 3 → Fin S2x512x1.rank)
  reducesTo_S2x512x1_S2x512_d2 : S2x512x1.ReducesTo [2] S2x512
  shapeCasts_S2x131072_S2x131072x1 : S2x131072.ShapeCasts S2x131072x1
  shapeCasts_S2x512_S2x1x512 : S2x512.ShapeCasts S2x1x512
  inb_S512x13_S512x13_0_0 : ∀ a, (![0, 0] : Fin 2 → Nat) a + S512x13.size a ≤ S512x13.size a
  h_S512x13 : 0 < S512x13.numel
  shapeCasts_S512x13_S512x13 : S512x13.ShapeCasts S512x13
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S2048x1_S2048x512 : S2048x1.Broadcasts S2048x512
  broadcasts_S1x512_S2048x512 : S1x512.Broadcasts S2048x512
  natLt_1_32 : 1 < 32
  slices_S2048x3_o0_0_S2048x1 : S2048x3.Slices ![0, 0] S2048x1
  slices_S2048x3_o0_1_S2048x1 : S2048x3.Slices ![0, 1] S2048x1
  slices_S2048x3_o0_2_S2048x1 : S2048x3.Slices ![0, 2] S2048x1
  concatenates_S2048x1_S2048x1_S2048x1_S2048x1_S2048x1_S2048x1_S2048x1_S2048x1_S2048x1_S2048x1_S2048x1_S2048x1_S2048x1_S2048x13_d1 : Shape.Concatenates [S2048x1, S2048x1, S2048x1, S2048x1, S2048x1, S2048x1, S2048x1, S2048x1, S2048x1, S2048x1, S2048x1, S2048x1, S2048x1] S2048x13 1
  slices_S512x13_o0_0_S512x1 : S512x13.Slices ![0, 0] S512x1
  slices_S512x13_o0_1_S512x3 : S512x13.Slices ![0, 1] S512x3
  slices_S512x13_o0_4_S512x9 : S512x13.Slices ![0, 4] S512x9
  broadcasts_S512x1_S512x3 : S512x1.Broadcasts S512x3
  slices_S512x3_o0_0_S512x1 : S512x3.Slices ![0, 0] S512x1
  slices_S512x3_o0_1_S512x1 : S512x3.Slices ![0, 1] S512x1
  slices_S512x3_o0_2_S512x1 : S512x3.Slices ![0, 2] S512x1
  concatenates_S512x1_S512x1_S512x1_S512x1_S512x1_S512x1_S512x1_S512x1_S512x1_S512x9_d1 : Shape.Concatenates [S512x1, S512x1, S512x1, S512x1, S512x1, S512x1, S512x1, S512x1, S512x1] S512x9 1
  broadcasts_S512x1_S512x9 : S512x1.Broadcasts S512x9
  concatenates_S512x3_S512x9_S512x12_d1 : Shape.Concatenates [S512x3, S512x9] S512x12 1
  inb_S1x512x12_S1x512x12_0_0_0 : ∀ a, (![0, 0, 0] : Fin 3 → Nat) a + S1x512x12.size a ≤ S1x512x12.size a
  h_S1x512x12 : 0 < S1x512x12.numel
  shapeCasts_S1x512x12_S512x12 : S1x512x12.ShapeCasts S512x12
  shapeCasts_S512x12_S1x512x12 : S512x12.ShapeCasts S1x512x12
  gather_S2x131072_S2x512x1_S2x512_n_1_0_0_1_2_11_wf : GatherDims.WF S2x131072 S2x512x1 S2x512 [] [1] [0] [1] [0] 2 ![1, 1]
  dot_S2048x512_S2048x13_S512x13_0_0_1_1_n_n_wf : DotDims.WF S2048x512 S2048x13 S512x13 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x3.size a ≤ S2x131072x3.size a
  hwx0_0 : ∀ i : grid0.Coords, EltTy.bits .f32 = 32 ∨ (Rect.block (s := S2x131072x3) S1x2048x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S2x131072x1.size a
  hwx0_1 : ∀ i : grid0.Coords, EltTy.bits .i32 = 32 ∨ (Rect.block (s := S2x131072x1) S1x2048x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S2x1x512.size a
  hwx0_2 : ∀ i : grid0.Coords, EltTy.bits .i32 = 32 ∨ (Rect.block (s := S2x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x12.size a ≤ S2x512x12.size a
  hwx0_3 : ∀ i : grid0.Coords, EltTy.bits .f32 = 32 ∨ (Rect.block (s := S2x512x12) S1x512x12.size (cc0_transform_3 i) (hinb0_3 i)).WholeWords (EltTy.packing .f32)

variable [Facts₀]

def gather_S2x131072_S2x512x1_S2x512_n_1_0_0_1_2_11 : GatherDims S2x131072 S2x512x1 S2x512 where
  offsetDims := []
  collapsedSliceDims := [1]
  operandBatchingDims := [0]
  startIndicesBatchingDims := [0]
  startIndexMap := [1]
  indexVectorDim := 2
  sliceSizes := ![1, 1]
  wf := gather_S2x131072_S2x512x1_S2x512_n_1_0_0_1_2_11_wf
def dot_S2048x512_S2048x13_S512x13_0_0_1_1_n_n : DotDims S2048x512 S2048x13 S512x13 where
  lhsContracting := [0]
  rhsContracting := [0]
  lhsNonContracting := [1]
  rhsNonContracting := [1]
  lhsBatch := []
  rhsBatch := []
  wf := dot_S2048x512_S2048x13_S512x13_0_0_1_1_n_n_wf

abbrev win0_0 : Pipeline.Window sig grid0 :=
  Pipeline.Window.ofSpec (Memref.whole main_arg0) S1x2048x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x512x12.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2x131072x3 : Shape := ⟨3, ![2, 131072, 3]⟩
abbrev S2x512 : Shape := ⟨2, ![2, 512]⟩
abbrev S_ : Shape := ⟨0, ![]⟩
abbrev S2x3 : Shape := ⟨2, ![2, 3]⟩
abbrev S2x1x3 : Shape := ⟨3, ![2, 1, 3]⟩
abbrev S2x131072x1 : Shape := ⟨3, ![2, 131072, 1]⟩
abbrev S2x131072 : Shape := ⟨2, ![2, 131072]⟩
abbrev S2 : Shape := ⟨1, ![2]⟩
abbrev S2x1 : Shape := ⟨2, ![2, 1]⟩
abbrev S262144 : Shape := ⟨1, ![262144]⟩
abbrev S262144x3 : Shape := ⟨2, ![262144, 3]⟩
abbrev S16000 : Shape := ⟨1, ![16000]⟩
abbrev S262144x1 : Shape := ⟨2, ![262144, 1]⟩
abbrev S2x8000x1 : Shape := ⟨3, ![2, 8000, 1]⟩
abbrev S16000x3 : Shape := ⟨2, ![16000, 3]⟩
abbrev S2x8000x3 : Shape := ⟨3, ![2, 8000, 3]⟩
abbrev S262144x3x1 : Shape := ⟨3, ![262144, 3, 1]⟩
abbrev S262144x1x3 : Shape := ⟨3, ![262144, 1, 3]⟩
abbrev S262144x3x3 : Shape := ⟨3, ![262144, 3, 3]⟩
abbrev S262144x9 : Shape := ⟨2, ![262144, 9]⟩
abbrev S16000x9 : Shape := ⟨2, ![16000, 9]⟩
abbrev S2x8000x9 : Shape := ⟨3, ![2, 8000, 9]⟩
abbrev S2x8000x3x1 : Shape := ⟨4, ![2, 8000, 3, 1]⟩
abbrev S2x8000x1x3 : Shape := ⟨4, ![2, 8000, 1, 3]⟩
abbrev S2x8000x3x3 : Shape := ⟨4, ![2, 8000, 3, 3]⟩
abbrev S2x8000x12 : Shape := ⟨3, ![2, 8000, 12]⟩
abbrev S2x512x1 : Shape := ⟨3, ![2, 512, 1]⟩
abbrev S1 : Shape := ⟨1, ![1]⟩
abbrev S1x1x1 : Shape := ⟨3, ![1, 1, 1]⟩
abbrev S2x512x12 : Shape := ⟨3, ![2, 512, 12]⟩

abbrev nBuf : Space → Nat
  | .hbm => 126
  | .vmem => 0
  | .smem => 0
  | _ => 0

abbrev bufTy : (tb : Table) → Fin (tcTables nBuf tb) → BufTy
  | .hbm, ⟨0, _⟩ => ⟨S2x131072x3, .f32⟩
  | .hbm, ⟨1, _⟩ => ⟨S2x512, .i32⟩
  | .hbm, ⟨2, _⟩ => ⟨S_, .f32⟩
  | .hbm, ⟨3, _⟩ => ⟨S2x3, .f32⟩
  | .hbm, ⟨4, _⟩ => ⟨S2x1x3, .f32⟩
  | .hbm, ⟨5, _⟩ => ⟨S2x131072x3, .f32⟩
  | .hbm, ⟨6, _⟩ => ⟨S2x131072x3, .f32⟩
  | .hbm, ⟨7, _⟩ => ⟨S_, .f32⟩
  | .hbm, ⟨8, _⟩ => ⟨S2x131072x3, .f32⟩
  | .hbm, ⟨9, _⟩ => ⟨S2x131072x3, .f32⟩
  | .hbm, ⟨10, _⟩ => ⟨S2x131072x3, .f32⟩
  | .hbm, ⟨11, _⟩ => ⟨S2x131072x3, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S2x131072x3, .i32⟩
  | .hbm, ⟨16, _⟩ => ⟨S2x131072x3, .i32⟩
  | .hbm, ⟨17, _⟩ => ⟨S_, .i32⟩
  | .hbm, ⟨18, _⟩ => ⟨S2x131072x3, .i32⟩
  | .hbm, ⟨19, _⟩ => ⟨S2x131072x3, .i32⟩
  | .hbm, ⟨20, _⟩ => ⟨S2x131072x1, .i32⟩
  | .hbm, ⟨21, _⟩ => ⟨S2x131072, .i32⟩
  | .hbm, ⟨22, _⟩ => ⟨S_, .i32⟩
  | .hbm, ⟨23, _⟩ => ⟨S2x131072, .i32⟩
  | .hbm, ⟨24, _⟩ => ⟨S2x131072, .i32⟩
  | .hbm, ⟨25, _⟩ => ⟨S2x131072x1, .i32⟩
  | .hbm, ⟨26, _⟩ => ⟨S2x131072, .i32⟩
  | .hbm, ⟨27, _⟩ => ⟨S2x131072, .i32⟩
  | .hbm, ⟨28, _⟩ => ⟨S_, .i32⟩
  | .hbm, ⟨29, _⟩ => ⟨S2x131072, .i32⟩
  | .hbm, ⟨30, _⟩ => ⟨S2x131072, .i32⟩
  | .hbm, ⟨31, _⟩ => ⟨S2x131072x1, .i32⟩
  | .hbm, ⟨32, _⟩ => ⟨S2x131072, .i32⟩
  | .hbm, ⟨33, _⟩ => ⟨S2x131072, .i32⟩
  | .hbm, ⟨34, _⟩ => ⟨S2, .i32⟩
  | .hbm, ⟨35, _⟩ => ⟨S2x1, .i32⟩
  | .hbm, ⟨36, _⟩ => ⟨S_, .i32⟩
  | .hbm, ⟨37, _⟩ => ⟨S2x1, .i32⟩
  | .hbm, ⟨38, _⟩ => ⟨S2x1, .i32⟩
  | .hbm, ⟨39, _⟩ => ⟨S2x131072, .i32⟩
  | .hbm, ⟨40, _⟩ => ⟨S2x131072, .i32⟩
  | .hbm, ⟨41, _⟩ => ⟨S262144, .i32⟩
  | .hbm, ⟨42, _⟩ => ⟨S262144x3, .f32⟩
  | .hbm, ⟨43, _⟩ => ⟨S_, .f32⟩
  | .hbm, ⟨44, _⟩ => ⟨S262144, .f32⟩
  | .hbm, ⟨45, _⟩ => ⟨S_, .f32⟩
  | .hbm, ⟨46, _⟩ => ⟨S16000, .f32⟩
  | .hbm, ⟨47, _⟩ => ⟨S262144x1, .i32⟩
  | .hbm, ⟨48, _⟩ => ⟨S16000, .f32⟩
  | .hbm, ⟨49, _⟩ => ⟨S2x8000x1, .f32⟩
  | .hbm, ⟨50, _⟩ => ⟨S_, .f32⟩
  | .hbm, ⟨51, _⟩ => ⟨S16000x3, .f32⟩
  | .hbm, ⟨52, _⟩ => ⟨S262144x1, .i32⟩
  | .hbm, ⟨53, _⟩ => ⟨S16000x3, .f32⟩
  | .hbm, ⟨54, _⟩ => ⟨S2x8000x3, .f32⟩
  | .hbm, ⟨55, _⟩ => ⟨S262144x3x1, .f32⟩
  | .hbm, ⟨56, _⟩ => ⟨S262144x1x3, .f32⟩
  | .hbm, ⟨57, _⟩ => ⟨S262144x3x3, .f32⟩
  | .hbm, ⟨58, _⟩ => ⟨S262144x3x3, .f32⟩
  | .hbm, ⟨59, _⟩ => ⟨S262144x3x3, .f32⟩
  | .hbm, ⟨60, _⟩ => ⟨S262144x9, .f32⟩
  | .hbm, ⟨61, _⟩ => ⟨S_, .f32⟩
  | .hbm, ⟨62, _⟩ => ⟨S16000x9, .f32⟩
  | .hbm, ⟨63, _⟩ => ⟨S262144x1, .i32⟩
  | .hbm, ⟨64, _⟩ => ⟨S16000x9, .f32⟩
  | .hbm, ⟨65, _⟩ => ⟨S2x8000x9, .f32⟩
  | .hbm, ⟨66, _⟩ => ⟨S_, .f32⟩
  | .hbm, ⟨67, _⟩ => ⟨S2x8000x1, .f32⟩
  | .hbm, ⟨68, _⟩ => ⟨S2x8000x1, .f32⟩
  | .hbm, ⟨69, _⟩ => ⟨S2x8000x3, .f32⟩
  | .hbm, ⟨70, _⟩ => ⟨S2x8000x3, .f32⟩
  | .hbm, ⟨71, _⟩ => ⟨S2x8000x9, .f32⟩
  | .hbm, ⟨72, _⟩ => ⟨S2x8000x9, .f32⟩
  | .hbm, ⟨73, _⟩ => ⟨S2x8000x3x1, .f32⟩
  | .hbm, ⟨74, _⟩ => ⟨S2x8000x1x3, .f32⟩
  | .hbm, ⟨75, _⟩ => ⟨S2x8000x3x3, .f32⟩
  | .hbm, ⟨76, _⟩ => ⟨S2x8000x3x3, .f32⟩
  | .hbm, ⟨77, _⟩ => ⟨S2x8000x3x3, .f32⟩
  | .hbm, ⟨78, _⟩ => ⟨S2x8000x9, .f32⟩
  | .hbm, ⟨79, _⟩ => ⟨S2x8000x9, .f32⟩
  | .hbm, ⟨80, _⟩ => ⟨S2x8000x12, .f32⟩
  | .hbm, ⟨81, _⟩ => ⟨S_, .i32⟩
  | .hbm, ⟨82, _⟩ => ⟨S2x512, .i32⟩
  | .hbm, ⟨83, _⟩ => ⟨S2x512, .i1⟩
  | .hbm, ⟨84, _⟩ => ⟨S_, .i32⟩
  | .hbm, ⟨85, _⟩ => ⟨S2x512, .i32⟩
  | .hbm, ⟨86, _⟩ => ⟨S2x512, .i32⟩
  | .hbm, ⟨87, _⟩ => ⟨S2x512, .i32⟩
  | .hbm, ⟨88, _⟩ => ⟨S2x512x1, .i32⟩
  | .hbm, ⟨89, _⟩ => ⟨S1, .i32⟩
  | .hbm, ⟨90, _⟩ => ⟨S_, .i32⟩
  | .hbm, ⟨91, _⟩ => ⟨S2x512x1, .i32⟩
  | .hbm, ⟨92, _⟩ => ⟨S2x512x1, .i1⟩
  | .hbm, ⟨93, _⟩ => ⟨S1x1x1, .i32⟩
  | .hbm, ⟨94, _⟩ => ⟨S2x512x1, .i32⟩
  | .hbm, ⟨95, _⟩ => ⟨S2x512x1, .i1⟩
  | .hbm, ⟨96, _⟩ => ⟨S2x512x1, .i1⟩
  | .hbm, ⟨97, _⟩ => ⟨S_, .i1⟩
  | .hbm, ⟨98, _⟩ => ⟨S2x512, .i1⟩
  | .hbm, ⟨99, _⟩ => ⟨S2x512, .i32⟩
  | .hbm, ⟨100, _⟩ => ⟨S_, .i32⟩
  | .hbm, ⟨101, _⟩ => ⟨S2x512, .i32⟩
  | .hbm, ⟨102, _⟩ => ⟨S2x512, .i32⟩
  | .hbm, ⟨103, _⟩ => ⟨S2x512x1, .i32⟩
  | .hbm, ⟨104, _⟩ => ⟨S_, .i32⟩
  | .hbm, ⟨105, _⟩ => ⟨S2x512x1, .i32⟩
  | .hbm, ⟨106, _⟩ => ⟨S2x512x1, .i1⟩
  | .hbm, ⟨107, _⟩ => ⟨S_, .i32⟩
  | .hbm, ⟨108, _⟩ => ⟨S2x512x1, .i32⟩
  | .hbm, ⟨109, _⟩ => ⟨S2x512x1, .i32⟩
  | .hbm, ⟨110, _⟩ => ⟨S2x512x1, .i32⟩
  | .hbm, ⟨111, _⟩ => ⟨S1, .i32⟩
  | .hbm, ⟨112, _⟩ => ⟨S_, .i32⟩
  | .hbm, ⟨113, _⟩ => ⟨S2x512x1, .i32⟩
  | .hbm, ⟨114, _⟩ => ⟨S2x512x1, .i1⟩
  | .hbm, ⟨115, _⟩ => ⟨S1x1x1, .i32⟩
  | .hbm, ⟨116, _⟩ => ⟨S2x512x1, .i32⟩
  | .hbm, ⟨117, _⟩ => ⟨S2x512x1, .i1⟩
  | .hbm, ⟨118, _⟩ => ⟨S2x512x1, .i1⟩
  | .hbm, ⟨119, _⟩ => ⟨S_, .i1⟩
  | .hbm, ⟨120, _⟩ => ⟨S2x512, .i1⟩
  | .hbm, ⟨121, _⟩ => ⟨S2x512x12, .f32⟩
  | .hbm, ⟨122, _⟩ => ⟨S2x512x12, .i1⟩
  | .hbm, ⟨123, _⟩ => ⟨S_, .f32⟩
  | .hbm, ⟨124, _⟩ => ⟨S2x512x12, .f32⟩
  | .hbm, ⟨125, _⟩ => ⟨S2x512x12, .f32⟩
  | _, _ => ⟨S2x131072x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_4 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_cst_6 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_8 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call1_c : Ref sig .tc := ⟨.hbm, 81, rfl⟩
abbrev main_call1_v0 : Ref sig .tc := ⟨.hbm, 82, rfl⟩
abbrev main_call1_v1 : Ref sig .tc := ⟨.hbm, 83, rfl⟩
abbrev main_call1_c_0 : Ref sig .tc := ⟨.hbm, 84, rfl⟩
abbrev main_call1_v2 : Ref sig .tc := ⟨.hbm, 85, rfl⟩
abbrev main_call1_v3 : Ref sig .tc := ⟨.hbm, 86, rfl⟩
abbrev main_call1_v4 : Ref sig .tc := ⟨.hbm, 87, rfl⟩
abbrev main_call1_v5 : Ref sig .tc := ⟨.hbm, 88, rfl⟩
abbrev main_call1_c_1 : Ref sig .tc := ⟨.hbm, 89, rfl⟩
abbrev main_call1_c_2 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_call1_c_3 : Ref sig .tc := ⟨.hbm, 97, rfl⟩
abbrev main_call1_v12 : Ref sig .tc := ⟨.hbm, 98, rfl⟩
abbrev main_call1_v13 : Ref sig .tc := ⟨.hbm, 99, rfl⟩
abbrev main_call1_c_4 : Ref sig .tc := ⟨.hbm, 100, rfl⟩
abbrev main_call1_v14 : Ref sig .tc := ⟨.hbm, 101, rfl⟩
abbrev main_v62 : Ref sig .tc := ⟨.hbm, 102, rfl⟩
abbrev main_v63 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_c_1 : Ref sig .tc := ⟨.hbm, 111, rfl⟩
abbrev main_call2_c_2 : Ref sig .tc := ⟨.hbm, 112, rfl⟩
abbrev main_call2_v5 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_c_3 : Ref sig .tc := ⟨.hbm, 119, rfl⟩
abbrev main_call2_v11 : Ref sig .tc := ⟨.hbm, 120, rfl⟩
abbrev main_call2_v12 : Ref sig .tc := ⟨.hbm, 121, rfl⟩
abbrev main_call2_v13 : Ref sig .tc := ⟨.hbm, 122, rfl⟩
abbrev main_call2_cst : Ref sig .tc := ⟨.hbm, 123, rfl⟩
abbrev main_call2_v14 : Ref sig .tc := ⟨.hbm, 124, rfl⟩
abbrev main_v64 : Ref sig .tc := ⟨.hbm, 125, rfl⟩

abbrev nD : Nat := 1
abbrev τ : Topo := Topo.v7x

variable {F : FTy → Type} [FloatOps F]

class Facts₀ : Prop where
  reducesTo_S2x131072x3_S2x3_d1 : S2x131072x3.ReducesTo [1] S2x3
  h_S_ : 0 < S_.numel
  bcast_S2x3_S2x1x3_0_2 : S2x3.BroadcastsInDim S2x1x3 (![0, 2] : Fin 2 → Fin S2x1x3.rank)
  bcast_S2x1x3_S2x131072x3_0_1_2 : S2x1x3.BroadcastsInDim S2x131072x3 (![0, 1, 2] : Fin 3 → Fin S2x131072x3.rank)
  bcast_S_S2x131072x3 : S_.BroadcastsInDim S2x131072x3 (![] : Fin 0 → Fin S2x131072x3.rank)
  slices_S2x131072x3_S2x131072x1_0_0_0 : S2x131072x3.Slices ![0, 0, 0] S2x131072x1
  shapeCasts_S2x131072x1_S2x131072 : S2x131072x1.ShapeCasts S2x131072
  bcast_S_S2x131072 : S_.BroadcastsInDim S2x131072 (![] : Fin 0 → Fin S2x131072.rank)
  slices_S2x131072x3_S2x131072x1_0_0_1 : S2x131072x3.Slices ![0, 0, 1] S2x131072x1
  slices_S2x131072x3_S2x131072x1_0_0_2 : S2x131072x3.Slices ![0, 0, 2] S2x131072x1
  bcast_S2_S2x1_0 : S2.BroadcastsInDim S2x1 (![0] : Fin 1 → Fin S2x1.rank)
  bcast_S_S2x1 : S_.BroadcastsInDim S2x1 (![] : Fin 0 → Fin S2x1.rank)
  bcast_S2x1_S2x131072_0_1 : S2x1.BroadcastsInDim S2x131072 (![0, 1] : Fin 2 → Fin S2x131072.rank)
  shapeCasts_S2x131072_S262144 : S2x131072.ShapeCasts S262144
  shapeCasts_S2x131072x3_S262144x3 : S2x131072x3.ShapeCasts S262144x3
  bcast_S_S262144 : S_.BroadcastsInDim S262144 (![] : Fin 0 → Fin S262144.rank)
  bcast_S_S16000 : S_.BroadcastsInDim S16000 (![] : Fin 0 → Fin S16000.rank)
  bcast_S262144_S262144x1_0 : S262144.BroadcastsInDim S262144x1 (![0] : Fin 1 → Fin S262144x1.rank)
  shapeCasts_S16000_S2x8000x1 : S16000.ShapeCasts S2x8000x1
  bcast_S_S16000x3 : S_.BroadcastsInDim S16000x3 (![] : Fin 0 → Fin S16000x3.rank)
  shapeCasts_S16000x3_S2x8000x3 : S16000x3.ShapeCasts S2x8000x3
  bcast_S262144x3_S262144x3x1_0_1 : S262144x3.BroadcastsInDim S262144x3x1 (![0, 1] : Fin 2 → Fin S262144x3x1.rank)
  bcast_S262144x3_S262144x1x3_0_2 : S262144x3.BroadcastsInDim S262144x1x3 (![0, 2] : Fin 2 → Fin S262144x1x3.rank)
  bcast_S262144x3x1_S262144x3x3_0_1_2 : S262144x3x1.BroadcastsInDim S262144x3x3 (![0, 1, 2] : Fin 3 → Fin S262144x3x3.rank)
  bcast_S262144x1x3_S262144x3x3_0_1_2 : S262144x1x3.BroadcastsInDim S262144x3x3 (![0, 1, 2] : Fin 3 → Fin S262144x3x3.rank)
  shapeCasts_S262144x3x3_S262144x9 : S262144x3x3.ShapeCasts S262144x9
  bcast_S_S16000x9 : S_.BroadcastsInDim S16000x9 (![] : Fin 0 → Fin S16000x9.rank)
  shapeCasts_S16000x9_S2x8000x9 : S16000x9.ShapeCasts S2x8000x9
  bcast_S_S2x8000x1 : S_.BroadcastsInDim S2x8000x1 (![] : Fin 0 → Fin S2x8000x1.rank)
  bcast_S2x8000x1_S2x8000x3_0_1_2 : S2x8000x1.BroadcastsInDim S2x8000x3 (![0, 1, 2] : Fin 3 → Fin S2x8000x3.rank)
  bcast_S2x8000x1_S2x8000x9_0_1_2 : S2x8000x1.BroadcastsInDim S2x8000x9 (![0, 1, 2] : Fin 3 → Fin S2x8000x9.rank)
  bcast_S2x8000x3_S2x8000x3x1_0_1_2 : S2x8000x3.BroadcastsInDim S2x8000x3x1 (![0, 1, 2] : Fin 3 → Fin S2x8000x3x1.rank)
  bcast_S2x8000x3_S2x8000x1x3_0_1_3 : S2x8000x3.BroadcastsInDim S2x8000x1x3 (![0, 1, 3] : Fin 3 → Fin S2x8000x1x3.rank)
  bcast_S2x8000x3x1_S2x8000x3x3_0_1_2_3 : S2x8000x3x1.BroadcastsInDim S2x8000x3x3 (![0, 1, 2, 3] : Fin 4 → Fin S2x8000x3x3.rank)
  bcast_S2x8000x1x3_S2x8000x3x3_0_1_2_3 : S2x8000x1x3.BroadcastsInDim S2x8000x3x3 (![0, 1, 2, 3] : Fin 4 → Fin S2x8000x3x3.rank)
  shapeCasts_S2x8000x3x3_S2x8000x9 : S2x8000x3x3.ShapeCasts S2x8000x9
  concatenates_S2x8000x3_S2x8000x9_S2x8000x12_d2 : Shape.Concatenates [S2x8000x3, S2x8000x9] S2x8000x12 2
  bcast_S_S2x512 : S_.BroadcastsInDim S2x512 (![] : Fin 0 → Fin S2x512.rank)
  shapeCasts_S2x512_S2x512x1 : S2x512.ShapeCasts S2x512x1
  bcast_S_S2x512x1 : S_.BroadcastsInDim S2x512x1 (![] : Fin 0 → Fin S2x512x1.rank)
  bcast_S1_S1x1x1_2 : S1.BroadcastsInDim S1x1x1 (![2] : Fin 1 → Fin S1x1x1.rank)
  bcast_S1x1x1_S2x512x1_0_1_2 : S1x1x1.BroadcastsInDim S2x512x1 (![0, 1, 2] : Fin 3 → Fin S2x512x1.rank)
  reducesTo_S2x512x1_S2x512_d2 : S2x512x1.ReducesTo [2] S2x512
  bcast_S2x512_S2x512x1_0_1 : S2x512.BroadcastsInDim S2x512x1 (![0, 1] : Fin 2 → Fin S2x512x1.rank)
  bcast_S2x512_S2x512x12_0_1 : S2x512.BroadcastsInDim S2x512x12 (![0, 1] : Fin 2 → Fin S2x512x12.rank)
  bcast_S_S2x512x12 : S_.BroadcastsInDim S2x512x12 (![] : Fin 0 → Fin S2x512x12.rank)
  scatter_S16000_S262144x1_S262144_n_0_0_1_wf : ScatterDims.WF S16000 S262144x1 S262144 [] [0] [0] 1
  scatter_S16000x3_S262144x1_S262144x3_1_0_0_1_wf : ScatterDims.WF S16000x3 S262144x1 S262144x3 [1] [0] [0] 1
  scatter_S16000x9_S262144x1_S262144x9_1_0_0_1_wf : ScatterDims.WF S16000x9 S262144x1 S262144x9 [1] [0] [0] 1
  gather_S2x131072_S2x512x1_S2x512_n_1_0_0_1_2_11_wf : GatherDims.WF S2x131072 S2x512x1 S2x512 [] [1] [0] [1] [0] 2 ![1, 1]
  gather_S2x8000x12_S2x512x1_S2x512x12_2_1_0_0_1_2_1112_wf : GatherDims.WF S2x8000x12 S2x512x1 S2x512x12 [2] [1] [0] [1] [0] 2 ![1, 1, 12]

variable [Facts₀]

def scatter_S16000_S262144x1_S262144_n_0_0_1 : ScatterDims S16000 S262144x1 S262144 where
  updateWindowDims := []
  insertedWindowDims := [0]
  scatterDimsToOperandDims := [0]
  indexVectorDim := 1
  wf := scatter_S16000_S262144x1_S262144_n_0_0_1_wf
def scatter_S16000x3_S262144x1_S262144x3_1_0_0_1 : ScatterDims S16000x3 S262144x1 S262144x3 where
  updateWindowDims := [1]
  insertedWindowDims := [0]
  scatterDimsToOperandDims := [0]
  indexVectorDim := 1
  wf := scatter_S16000x3_S262144x1_S262144x3_1_0_0_1_wf
def scatter_S16000x9_S262144x1_S262144x9_1_0_0_1 : ScatterDims S16000x9 S262144x1 S262144x9 where
  updateWindowDims := [1]
  insertedWindowDims := [0]
  scatterDimsToOperandDims := [0]
  indexVectorDim := 1
  wf := scatter_S16000x9_S262144x1_S262144x9_1_0_0_1_wf
def gather_S2x131072_S2x512x1_S2x512_n_1_0_0_1_2_11 : GatherDims S2x131072 S2x512x1 S2x512 where
  offsetDims := []
  collapsedSliceDims := [1]
  operandBatchingDims := [0]
  startIndicesBatchingDims := [0]
  startIndexMap := [1]
  indexVectorDim := 2
  sliceSizes := ![1, 1]
  wf := gather_S2x131072_S2x512x1_S2x512_n_1_0_0_1_2_11_wf
def gather_S2x8000x12_S2x512x1_S2x512x12_2_1_0_0_1_2_1112 : GatherDims S2x8000x12 S2x512x1 S2x512x12 where
  offsetDims := [2]
  collapsedSliceDims := [1]
  operandBatchingDims := [0]
  startIndicesBatchingDims := [0]
  startIndexMap := [1]
  indexVectorDim := 2
  sliceSizes := ![1, 1, 12]
  wf := gather_S2x8000x12_S2x512x1_S2x512x12_2_1_0_0_1_2_1112_wf

class Facts : Prop extends Facts₀ where

variable [Facts]
-- ==== Proof.KernelPieces.lean ====
/-
  What each control case of the kernel's body leaves in the carried sums and in the output block, as the body's
  pure terms: the first tile of a batch resets the sums and then takes its step from zero; every later tile takes
  its step from what the tile before left; the last tile also writes the output block, the finish of the sums it
  has just updated.
-/
import proofs.«413474_j66005057405413_2_alg».proof.Proof.Gen.KernelIdeal.Frame
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic

variable {F : FTy → Type} [FloatOps F]

/-- The zero offsets of a whole rank-2 rectangle, as the constant function zero. -/
private theorem hz2 : (![0, 0] : Fin 2 → Nat) = fun _ => 0 := funext fun a => by fin_cases a <;> rfl

/-- The zero offsets of a whole rank-3 rectangle, as the constant function zero. -/
private theorem hz3 : (![0, 0, 0] : Fin 3 → Nat) = fun _ => 0 := funext fun a => by fin_cases a <;> rfl

/-- First tile of a batch: the step taken from the reset value. -/
theorem firstTile_sums (c : Dev nD) (i : grid0.Coords) (arg2 : Memref sig .tc .vmem S1x2048x3 .f32) (harg2 : arg2.IsWhole) (arg3 : Memref sig .tc .vmem S1x2048x1 .i32) (harg3 : arg3.IsWhole) (arg4 : Memref sig .tc .vmem S1x1x512 .i32) (harg4 : arg4.IsWhole) (arg5 : Memref sig .tc .vmem S1x512x12 .f32) (harg5 : arg5.IsWhole) (arg6 : Memref sig .tc .vmem S512x13 .f32) (harg6 : arg6.IsWhole) (hc0 : cond0_0 i) (hc1 : ¬cond0_1 i)
    (x0 : Vec F S1x2048x3 .f32) (x1 : Vec F S1x2048x1 .i32) (x2 : Vec F S1x1x512 .i32) :
    sout0_A_0 c i arg2 harg2 arg3 harg3 arg4 harg4 arg5 harg5 arg6 harg6 hc0 hc1 x0 x1 x2
      = k0_pay3 x0 x1 x2 (k0_pay2 (F := F)) := by
  -- Two whole-shape stores into the sums: the reset, then the step. The later one covers, so the sums end as its
  -- payload; the step's own reading of the sums, taken between the two, sees the one store before it, the reset.
  -- Every input block is read through the whole-shape rectangle at zero offsets, hence is the block itself.
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S512x13) hz2, View.readCov_unit_zero (S := S512x13) _ hz2]
  simp only [View.readAt_eq_ld, harg2.read_unread, harg3.read_unread, harg4.read_unread,
    View.ld_unit_zero (S := S1x2048x3) hz3, View.ld_unit_zero (S := S1x2048x1) hz3, View.ld_unit_zero (S := S1x1x512) hz3]

/-- A middle tile: the step taken from what the tile before left. -/
theorem middleTile_sums (c : Dev nD) (i : grid0.Coords) (arg2 : Memref sig .tc .vmem S1x2048x3 .f32) (harg2 : arg2.IsWhole) (arg3 : Memref sig .tc .vmem S1x2048x1 .i32) (harg3 : arg3.IsWhole) (arg4 : Memref sig .tc .vmem S1x1x512 .i32) (harg4 : arg4.IsWhole) (arg5 : Memref sig .tc .vmem S1x512x12 .f32) (harg5 : arg5.IsWhole) (arg6 : Memref sig .tc .vmem S512x13 .f32) (harg6 : arg6.IsWhole) (hc0 : ¬cond0_0 i) (hc1 : ¬cond0_1 i)
    (x0 : Vec F S1x2048x3 .f32) (x1 : Vec F S1x2048x1 .i32) (x2 : Vec F S1x1x512 .i32) (xs0 : Vec F S512x13 .f32) :
    sout0_B_0 c i arg2 harg2 arg3 harg3 arg4 harg4 arg5 harg5 arg6 harg6 hc0 hc1 x0 x1 x2 xs0
      = k0_pay3 x0 x1 x2 xs0 := by
  -- One whole-shape store into the sums, so they end as its payload: the step, whose readings of the input blocks
  -- and of the sums as the tile before left them are through whole-shape rectangles at zero offsets.
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S512x13) hz2]
  simp only [View.readAt_eq_ld, harg2.read_unread, harg3.read_unread, harg4.read_unread, harg6.read_unread,
    View.ld_unit_zero (S := S1x2048x3) hz3, View.ld_unit_zero (S := S1x2048x1) hz3, View.ld_unit_zero (S := S1x1x512) hz3,
    View.ld_unit_zero (S := S512x13) hz2]

/-- The last tile: the same step, … -/
theorem lastTile_sums (c : Dev nD) (i : grid0.Coords) (arg2 : Memref sig .tc .vmem S1x2048x3 .f32) (harg2 : arg2.IsWhole) (arg3 : Memref sig .tc .vmem S1x2048x1 .i32) (harg3 : arg3.IsWhole) (arg4 : Memref sig .tc .vmem S1x1x512 .i32) (harg4 : arg4.IsWhole) (arg5 : Memref sig .tc .vmem S1x512x12 .f32) (harg5 : arg5.IsWhole) (arg6 : Memref sig .tc .vmem S512x13 .f32) (harg6 : arg6.IsWhole) (hc0 : ¬cond0_0 i) (hc1 : cond0_1 i)
    (x0 : Vec F S1x2048x3 .f32) (x1 : Vec F S1x2048x1 .i32) (x2 : Vec F S1x1x512 .i32) (xs0 : Vec F S512x13 .f32) :
    sout0_C_0 c i arg2 harg2 arg3 harg3 arg4 harg4 arg5 harg5 arg6 harg6 hc0 hc1 x0 x1 x2 xs0
      = k0_pay3 x0 x1 x2 xs0 := by
  -- As for a middle tile: the output block's store does not touch the sums, whose one whole-shape store is the step.
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S512x13) hz2]
  simp only [View.readAt_eq_ld, harg2.read_unread, harg3.read_unread, harg4.read_unread, harg6.read_unread,
    View.ld_unit_zero (S := S1x2048x3) hz3, View.ld_unit_zero (S := S1x2048x1) hz3, View.ld_unit_zero (S := S1x1x512) hz3,
    View.ld_unit_zero (S := S512x13) hz2]

/-- … and the output block is the finish of the sums after that step. -/
theorem lastTile_block (c : Dev nD) (i : grid0.Coords) (arg2 : Memref sig .tc .vmem S1x2048x3 .f32) (harg2 : arg2.IsWhole) (arg3 : Memref sig .tc .vmem S1x2048x1 .i32) (harg3 : arg3.IsWhole) (arg4 : Memref sig .tc .vmem S1x1x512 .i32) (harg4 : arg4.IsWhole) (arg5 : Memref sig .tc .vmem S1x512x12 .f32) (harg5 : arg5.IsWhole) (arg6 : Memref sig .tc .vmem S512x13 .f32) (harg6 : arg6.IsWhole) (hc0 : ¬cond0_0 i) (hc1 : cond0_1 i)
    (x0 : Vec F S1x2048x3 .f32) (x1 : Vec F S1x2048x1 .i32) (x2 : Vec F S1x1x512 .i32) (xs0 : Vec F S512x13 .f32) :
    out0_C_3 c i arg2 harg2 arg3 harg3 arg4 harg4 arg5 harg5 arg6 harg6 hc0 hc1 x0 x1 x2 xs0
      = k0_pay1 (k0_pay3 x0 x1 x2 xs0) := by
  -- One whole-shape store into the output block, so it ends as that store's payload: the finish of the sums read
  -- back after the step's covering store, that is, of the step's payload.
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S1x512x12) hz3]
  simp only [View.readAt_eq_ld, harg2.read_unread, harg3.read_unread, harg4.read_unread, harg6.read_unread,
    View.ld_unit_zero (S := S1x2048x3) hz3, View.ld_unit_zero (S := S1x2048x1) hz3, View.ld_unit_zero (S := S1x1x512) hz3,
    View.ld_unit_zero (S := S512x13) hz2,
    View.readCov_unit_zero (S := S512x13) _ hz2]

end Cert.KernelIdeal.Pieces

end
-- ==== Proof.Moments.lean ====
/-
  The function both programs compute. A point cloud `X` of two batches of 131072 points in the extended reals
  cubed, a voxel word `flat b n` for every point, and for each of the 512 sampled positions `q` of batch `b` a voxel
  word `key b q`. For the voxel named by `key b q`, thirteen sums run over the points of batch `b` that lie in it:
  the count, the three coordinate sums and the nine sums of products of two coordinates. The result row holds the
  three means (coordinate sum over the count, the count raised to at least one) and the nine covariances (product
  sum over the same divisor, less the product of the two means).
-/
import Idealize.ShloMosaic.PureOps.Ideal
import Idealize.ShloMosaic.Lib.ValueIdx

noncomputable section

open scoped BigOperators

namespace Cert.Moments

open Idealize.ShloMosaic Idealize.ShloMosaic.ValueIdx

/-- The points: two batches of 131072 points of three coordinates. -/
abbrev SX : Shape := ⟨3, ![2, 131072, 3]⟩
/-- One voxel word per point. -/
abbrev SF : Shape := ⟨2, ![2, 131072]⟩
/-- One voxel word per sampled position. -/
abbrev SQ : Shape := ⟨2, ![2, 512]⟩
/-- Twelve statistics per sampled position. -/
abbrev SO : Shape := ⟨3, ![2, 512, 12]⟩

/-- The unit every point contributes to its voxel's count: the single-precision word of one, read as an extended
    real. Both programs carry this same word, so it is never evaluated. -/
abbrev unit : EReal := Ideal.ofBits .f32 0x3F800000#32

/-- What one point `p` adds to the thirteen sums of its voxel: the unit, its three coordinates, and the nine
    products `p i * p j`, the product of coordinates `i` and `j` at position `4 + 3 i + j`. -/
def summand (p : Fin 3 → EReal) : Fin 13 → EReal :=
  ![unit, p 0, p 1, p 2,
    p 0 * p 0, p 0 * p 1, p 0 * p 2,
    p 1 * p 0, p 1 * p 1, p 1 * p 2,
    p 2 * p 0, p 2 * p 1, p 2 * p 2]

/-- The divisor of a voxel's sums: its count, raised to at least the unit (an empty voxel divides by one). -/
def divisor (a : Fin 13 → EReal) : EReal := max (a 0) unit

/-- The mean of coordinate `i` from a voxel's thirteen sums. -/
def mean (a : Fin 13 → EReal) (i : Fin 3) : EReal := Ideal.div (a ⟨1 + i.val, by omega⟩) (divisor a)

/-- The twelve statistics of a voxel from its thirteen sums `a`: positions `0, 1, 2` the means; position
    `3 + 3 i + j` the covariance of coordinates `i` and `j`, the mean product less the product of the means. -/
def stats (a : Fin 13 → EReal) (k : Fin 12) : EReal :=
  if h : k.val < 3 then mean a ⟨k.val, h⟩
  else Ideal.div (a ⟨k.val + 1, by omega⟩) (divisor a)
        - mean a ⟨(k.val - 3) / 3, by omega⟩ * mean a ⟨(k.val - 3) % 3, by omega⟩

/-- Moment `k` summed over the points of batch `b` whose voxel word is `key`. -/
def voxelSum (X : SX.Idx → EReal) (flat : SF.Idx → BitVec 32) (b : Fin 2) (key : BitVec 32) (k : Fin 13) : EReal :=
  ∑ n : Fin 131072, if flat (ix2 b n) = key then summand (fun d => X (ix3 b n d)) k else 0

/-- The result at batch `b`, sampled position `q`, statistic `k`: the statistics of the voxel whose word is
    `key b q`, from the sums over batch `b`. -/
def rowStat (X : SX.Idx → EReal) (flat : SF.Idx → BitVec 32) (key : SQ.Idx → BitVec 32)
    (b : Fin 2) (q : Fin 512) (k : Fin 12) : EReal :=
  stats (voxelSum X flat b (key (ix2 b q))) k

/-- The whole result array as one function of the points, the points' voxel words and the sampled voxel words. -/
def G (X : SX.Idx → EReal) (flat : SF.Idx → BitVec 32) (key : SQ.Idx → BitVec 32) : SO.Idx → EReal :=
  fun i => rowStat X flat key ⟨(i 0).val, (i 0).isLt⟩ ⟨(i 1).val, (i 1).isLt⟩ ⟨(i 2).val, (i 2).isLt⟩

theorem G_apply (X : SX.Idx → EReal) (flat : SF.Idx → BitVec 32) (key : SQ.Idx → BitVec 32)
    (b : Fin 2) (q : Fin 512) (k : Fin 12) : G X flat key (ix3 b q k) = rowStat X flat key b q k := rfl

end Cert.Moments

end
-- ==== Proof.Words.lean ====
/-
  Facts about 32-bit words that the voxel arithmetic needs. A coordinate clipped into `[0, 19]`; three such
  coordinates combined as `(a * 20 + b) * 20 + c`, which stays below `8000` and does not wrap; that word offset by
  `8000` times the batch number, read as a signed integer; an index in `[-131072, 131072)` brought into
  `[0, 131071]` by adding `131072` to the negative ones; a word below `8000` against the signed bounds `0` and
  `7999`; and the word comparison that says whether two words are equal, turned into the extended reals one and zero.
-/
import Idealize.ShloMosaic.PureOps.Ideal
import Idealize.ShloMosaic.Lib.StableHlo.Predicate

noncomputable section

namespace Cert.Words

open Idealize.ShloMosaic

/-! The signed value of a 32-bit word is its unsigned value, less `2 ^ 32` when the top bit is set. Every signed
    fact below is read off this one relation, the signed orders being the orders of the signed values. -/

private theorem toInt_cases (x : BitVec 32) :
    (x.toNat < 2147483648 ∧ x.toInt = (x.toNat : Int)) ∨ (2147483648 ≤ x.toNat ∧ x.toInt = (x.toNat : Int) - 4294967296) := by
  have h := BitVec.toInt_eq_toNat_cond x
  have hlt := x.isLt
  by_cases hc : 2 * x.toNat < 2 ^ 32
  · rw [if_pos hc] at h; left; exact ⟨by omega, h⟩
  · rw [if_neg hc] at h; right; refine ⟨by omega, ?_⟩; rw [h]; norm_num

/-- The signed maximum has the larger signed value. -/
private theorem toInt_maxsi (x y : BitVec 32) : (IntOp.maxsi x y).toInt = max x.toInt y.toInt := by
  unfold IntOp.maxsi
  by_cases h : y.slt x = true
  · rw [if_pos h]; simp only [BitVec.slt, decide_eq_true_eq] at h; omega
  · rw [if_neg h]; simp only [BitVec.slt, decide_eq_true_eq] at h; omega

/-- The signed minimum has the smaller signed value. -/
private theorem toInt_minsi (x y : BitVec 32) : (IntOp.minsi x y).toInt = min x.toInt y.toInt := by
  unfold IntOp.minsi
  by_cases h : x.slt y = true
  · rw [if_pos h]; simp only [BitVec.slt, decide_eq_true_eq] at h; omega
  · rw [if_neg h]; simp only [BitVec.slt, decide_eq_true_eq] at h; omega

/-- A word clipped below by `0` and above by `19` (signed) is a number at most `19`. -/
theorem clip_le (w : BitVec 32) : (IntOp.minsi 19#32 (IntOp.maxsi 0#32 w)).toNat ≤ 19 := by
  have h19 : (19#32 : BitVec 32).toInt = 19 := by decide
  have h0 : (0#32 : BitVec 32).toInt = 0 := by decide
  -- the signed value of the clipped word is min 19 (max 0 w), which lies in [0, 19]
  have hv : (IntOp.minsi 19#32 (IntOp.maxsi 0#32 w)).toInt = min 19 (max 0 w.toInt) := by
    rw [toInt_minsi, toInt_maxsi, h19, h0]
  rcases toInt_cases (IntOp.minsi 19#32 (IntOp.maxsi 0#32 w)) with ⟨_, h⟩ | ⟨_, h⟩ <;> omega

/-- Three coordinates at most `19` combine, without wrapping, to a word below `8000`. -/
theorem combine_lt (a b c : BitVec 32) (ha : a.toNat ≤ 19) (hb : b.toNat ≤ 19) (hc : c.toNat ≤ 19) :
    (IntOp.addi (IntOp.muli (IntOp.addi (IntOp.muli a 20#32) b) 20#32) c).toNat < 8000 := by
  have h20 : (20#32 : BitVec 32).toNat = 20 := by decide
  -- each step stays far below 2 ^ 32, so the word operations are the operations on the values
  have h1 : (a * 20#32).toNat = a.toNat * 20 := by
    rw [BitVec.toNat_mul, h20]; exact Nat.mod_eq_of_lt (by omega)
  have h2 : (a * 20#32 + b).toNat = a.toNat * 20 + b.toNat := by
    rw [BitVec.toNat_add, h1]; exact Nat.mod_eq_of_lt (by omega)
  have h3 : ((a * 20#32 + b) * 20#32).toNat = (a.toNat * 20 + b.toNat) * 20 := by
    rw [BitVec.toNat_mul, h2, h20]; exact Nat.mod_eq_of_lt (by omega)
  have h4 : ((a * 20#32 + b) * 20#32 + c).toNat = (a.toNat * 20 + b.toNat) * 20 + c.toNat := by
    rw [BitVec.toNat_add, h3]; exact Nat.mod_eq_of_lt (by omega)
  show ((a * 20#32 + b) * 20#32 + c).toNat < 8000
  rw [h4]; omega

/-- A voxel word below `8000`, offset by `8000` times the batch number `b < 2`, read signed. -/
theorem offset_toInt (f : BitVec 32) (hf : f.toNat < 8000) (b : Nat) (hb : b < 2) :
    (IntOp.addi f (IntOp.muli (BitVec.ofNat 32 b) 8000#32)).toInt = ((f.toNat + 8000 * b : Nat) : Int) := by
  have h8000 : (8000#32 : BitVec 32).toNat = 8000 := by decide
  have hbn : (BitVec.ofNat 32 b).toNat = b := by
    rw [BitVec.toNat_ofNat]; exact Nat.mod_eq_of_lt (by omega)
  have h1 : (BitVec.ofNat 32 b * 8000#32).toNat = b * 8000 := by
    rw [BitVec.toNat_mul, hbn, h8000]; exact Nat.mod_eq_of_lt (by omega)
  have h2 : (f + BitVec.ofNat 32 b * 8000#32).toNat = f.toNat + 8000 * b := by
    rw [BitVec.toNat_add, h1]; rw [Nat.mod_eq_of_lt (by omega)]; omega
  show (f + BitVec.ofNat 32 b * 8000#32).toInt = _
  -- the sum is below 16000, hence below 2 ^ 31: signed and unsigned readings agree
  rw [StableHlo.Predicate.toInt_eq_toNat_of_lt (by rw [h2]; omega), h2]

/-- An index in `[-131072, 131072)`, the negative ones raised by `131072`, lies in `[0, 131071]`. -/
theorem wrapIndex_inRange (i : BitVec 32) (hlo : IntOp.cmpi .sge i 4294836224#32 = 1#1)
    (hhi : IntOp.cmpi .slt i 131072#32 = 1#1) :
    IntOp.cmpi .sge (Scalar.select (IntOp.cmpi .slt i 0#32) (IntOp.addi i 131072#32) i) 0#32 = 1#1
    ∧ IntOp.cmpi .sle (Scalar.select (IntOp.cmpi .slt i 0#32) (IntOp.addi i 131072#32) i) 131071#32 = 1#1 := by
  have hA : (4294836224#32 : BitVec 32).toInt = -131072 := by decide
  have hB : (131072#32 : BitVec 32).toInt = 131072 := by decide
  have hBn : (131072#32 : BitVec 32).toNat = 131072 := by decide
  have hC : (131071#32 : BitVec 32).toInt = 131071 := by decide
  have h0 : (0#32 : BitVec 32).toInt = 0 := by decide
  -- the hypotheses, as bounds on the signed value of the index
  have hlo' : -131072 ≤ i.toInt := by
    simp only [IntOp.cmpi, StableHlo.Predicate.ofBool_eq_one_iff, BitVec.sle, decide_eq_true_eq, hA] at hlo
    exact hlo
  have hhi' : i.toInt < 131072 := by
    simp only [IntOp.cmpi, StableHlo.Predicate.ofBool_eq_one_iff, BitVec.slt, decide_eq_true_eq, hB] at hhi
    exact hhi
  -- the goal, as bounds on the signed value of the selected word
  suffices hs : 0 ≤ (Scalar.select (IntOp.cmpi .slt i 0#32) (IntOp.addi i 131072#32) i).toInt
      ∧ (Scalar.select (IntOp.cmpi .slt i 0#32) (IntOp.addi i 131072#32) i).toInt ≤ 131071 by
    simp only [IntOp.cmpi, StableHlo.Predicate.ofBool_eq_one_iff, BitVec.sle, decide_eq_true_eq, h0, hC]
    exact hs
  by_cases hneg : i.toInt < 0
  · -- a negative index: the raised word is i + 131072, whose unsigned value wraps past 2 ^ 32 back into [0, 131072)
    have hc : IntOp.cmpi .slt i 0#32 = 1#1 := by
      simp only [IntOp.cmpi, StableHlo.Predicate.ofBool_eq_one_iff, BitVec.slt, decide_eq_true_eq, h0]; exact hneg
    have hsel : Scalar.select (IntOp.cmpi .slt i 0#32) (IntOp.addi i 131072#32) i = i + 131072#32 := by
      unfold Scalar.select; exact (if_pos hc).trans rfl
    rw [hsel]
    have hn : (i + 131072#32).toNat = (i.toNat + 131072) % 4294967296 := by
      rw [BitVec.toNat_add, hBn]
    rcases toInt_cases i with ⟨hi1, hi2⟩ | ⟨hi1, hi2⟩
    · omega
    · rcases toInt_cases (i + 131072#32) with ⟨hj1, hj2⟩ | ⟨hj1, hj2⟩ <;> omega
  · -- an index that is not negative is kept
    have hc : ¬ IntOp.cmpi .slt i 0#32 = 1#1 := by
      simp only [IntOp.cmpi, StableHlo.Predicate.ofBool_eq_one_iff, BitVec.slt, decide_eq_true_eq, h0]; exact hneg
    have hsel : Scalar.select (IntOp.cmpi .slt i 0#32) (IntOp.addi i 131072#32) i = i := by
      unfold Scalar.select; exact if_neg hc
    rw [hsel]; omega

/-- A word below `8000` is not negative, … -/
theorem small_not_neg (j : BitVec 32) (hj : j.toNat < 8000) : IntOp.cmpi .slt j 0#32 = 0#1 := by
  have h0 : (0#32 : BitVec 32).toInt = 0 := by decide
  have hji : j.toInt = j.toNat := StableHlo.Predicate.toInt_eq_toNat_of_lt (by omega)
  have hf : j.slt 0#32 = false := by
    simp only [BitVec.slt, hji, h0, decide_eq_false_iff_not]; omega
  unfold IntOp.cmpi
  show BitVec.ofBool (j.slt 0#32) = 0#1
  rw [hf]; rfl

/-- … is at least `0` and at most `7999` as a signed word, … -/
theorem small_inRange (j : BitVec 32) (hj : j.toNat < 8000) :
    IntOp.cmpi .sge j 0#32 = 1#1 ∧ IntOp.cmpi .sle j 7999#32 = 1#1 := by
  have h0 : (0#32 : BitVec 32).toNat = 0 := by decide
  have h7999 : (7999#32 : BitVec 32).toNat = 7999 := by decide
  constructor
  · exact (StableHlo.Predicate.sge_iff_toNat (by omega) (by rw [h0]; omega)).mpr (by rw [h0]; omega)
  · exact (StableHlo.Predicate.sle_iff_toNat (by omega) (by rw [h7999]; omega)).mpr (by rw [h7999]; omega)

/-- … and clamping its signed value into `[0, 7999]` leaves it. -/
theorem small_clamp (j : BitVec 32) (hj : j.toNat < 8000) : min j.toInt.toNat (8000 - 1) = j.toNat := by
  have hji : j.toInt = j.toNat := StableHlo.Predicate.toInt_eq_toNat_of_lt (by omega)
  rw [hji, Int.toNat_natCast]; omega

/-- The equality test of two words, widened to a 32-bit word and converted to a float: one if they are equal, zero
    if not. -/
theorem eqMask (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · -- equal words: the test is the bit 1, widened it is the word 1, whose signed value is 1
    rw [if_pos h, StableHlo.Predicate.cmpi_eq_iff.mpr h]
    have h1 : ((1#1 : BitVec 1).setWidth 32).toInt = 1 := by decide
    rw [h1]; norm_num
  · -- distinct words: the test is the bit 0, and all of its readings are 0
    have hz : IntOp.cmpi .eq a b = 0#1 := by
      rcases BitVec.eq_zero_or_eq_one (IntOp.cmpi .eq a b) with h0 | h1
      · exact h0
      · exact absurd (StableHlo.Predicate.cmpi_eq_iff.mp h1) h
    rw [if_neg h, hz]
    have h0 : ((0#1 : BitVec 1).setWidth 32).toInt = 0 := by decide
    rw [h0]; norm_num

end Cert.Words

end
-- ==== Proof.KernelPayload.lean ====
/-
  What the kernel's body computes, read at one element over the extended reals. The reset writes zero. The step
  adds to the carried sums, for sampled position `q` and moment `k`, the moment's summand of every point of the
  tile whose voxel word equals the sampled word: the tile's points enter through a zero-one matrix of word equalities
  multiplied into the matrix of summands, and a product with zero is zero and with one the factor itself, on every
  extended real. The finish turns the thirteen sums of a row into its twelve statistics.
-/
import proofs.«413474_j66005057405413_2_alg».proof.Proof.Gen.KernelIdeal.Skeleton
import proofs.«413474_j66005057405413_2_alg».proof.Proof.Moments
import proofs.«413474_j66005057405413_2_alg».proof.Proof.Words
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Payload

open Cert.KernelIdeal Cert.KernelIdeal.Gen Idealize.ShloMosaic Idealize.ShloMosaic.ValueIdx Cert.Moments

/-! ### Reads of layout operations at an index -/

/-- A `[a, 1]` column broadcast to `[a, b]` reads, at `(p, c)`, the column at row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Piece `k` of a concatenation of one-column pieces along the columns: column `k` of the result is the piece's one
    column. -/
private theorem concat_col_apply {α : Type} {R N : ℕ} (xs : List ((s : Shape) × (s.Idx → α)))
    (h : Shape.Concatenates (xs.map (·.1)) ⟨2, ![R, N]⟩ 1) (r : Fin R) (k : Fin N) (hlen : xs.length = N)
    (x₁ : (⟨2, ![R, 1]⟩ : Shape).Idx → α) (hxk : xs[k.val]'(hlen.symm ▸ k.isLt) = ⟨⟨2, ![R, 1]⟩, x₁⟩)
    (hpre : (((xs.take k.val).map (·.1)).map fun s : Shape =>
      if h : s.rank = (⟨2, ![R, N]⟩ : Shape).rank then s.size ((1 : Fin (⟨2, ![R, N]⟩ : Shape).rank).cast h.symm) else 0).sum = k.val) :
    concatenate ⟨2, ![R, N]⟩ 1 xs h (ix2 r k) = x₁ (ix2 r (0 : Fin 1)) :=
  concatenate_apply_piece 1 xs h (ix2 r k) k.val (hlen.symm ▸ k.isLt) ⟨2, ![R, 1]⟩ x₁ hxk rfl k.val hpre (ix2 r (0 : Fin 1))
    (fun b => by
      match b with
      | ⟨0, _⟩ => exact fun _ => rfl
      | ⟨1, _⟩ => exact fun hb => absurd rfl hb)
    (Nat.add_zero _)

/-! ### The matrix product at an index -/

private theorem lhs_axis0 (i : S512x13.Idx) (c : dot_S2048x512_S2048x13_S512x13_0_0_1_1_n_n.contr.Idx) :
    (dot_S2048x512_S2048x13_S512x13_0_0_1_1_n_n.lhsIdx i c 0).val = (c ⟨0, by decide⟩).val :=
  dot_S2048x512_S2048x13_S512x13_0_0_1_1_n_n.lhsIdx_val_of_single rfl i c

private theorem lhs_axis1 (i : S512x13.Idx) (c : dot_S2048x512_S2048x13_S512x13_0_0_1_1_n_n.contr.Idx) :
    (dot_S2048x512_S2048x13_S512x13_0_0_1_1_n_n.lhsIdx i c 1).val = (i 0).val := by
  unfold DotDims.lhsIdx
  rw [dif_neg (show ¬(1 : Fin S2048x512.rank) ∈ dot_S2048x512_S2048x13_S512x13_0_0_1_1_n_n.lhsBatch by decide),
    dif_pos (show (1 : Fin S2048x512.rank) ∈ dot_S2048x512_S2048x13_S512x13_0_0_1_1_n_n.lhsNonContracting by decide)]
  rfl

private theorem rhs_axis0 (i : S512x13.Idx) (c : dot_S2048x512_S2048x13_S512x13_0_0_1_1_n_n.contr.Idx) :
    (dot_S2048x512_S2048x13_S512x13_0_0_1_1_n_n.rhsIdx i c 0).val = (c ⟨0, by decide⟩).val :=
  dot_S2048x512_S2048x13_S512x13_0_0_1_1_n_n.rhsIdx_val_of_single rfl i c

private theorem rhs_axis1 (i : S512x13.Idx) (c : dot_S2048x512_S2048x13_S512x13_0_0_1_1_n_n.contr.Idx) :
    (dot_S2048x512_S2048x13_S512x13_0_0_1_1_n_n.rhsIdx i c 1).val = (i 1).val := by
  unfold DotDims.rhsIdx
  rw [dif_neg (show ¬(1 : Fin S2048x13.rank) ∈ dot_S2048x512_S2048x13_S512x13_0_0_1_1_n_n.rhsBatch by decide),
    dif_pos (show (1 : Fin S2048x13.rank) ∈ dot_S2048x512_S2048x13_S512x13_0_0_1_1_n_n.rhsNonContracting by decide)]
  rfl

/-- The product contracts the 2048 rows of both operands: entry `(q, k)` is the sum over rows `r` of the left
    operand at `(r, q)` times the right operand at `(r, k)`. -/
private theorem matmul_at (lhs : FVec Ideal S2048x512 .f32) (rhs : FVec Ideal S2048x13 .f32) (q : Fin 512) (k : Fin 13) :
    FloatOps.matmul dot_S2048x512_S2048x13_S512x13_0_0_1_1_n_n (some .fp32) lhs rhs
        (constant (F := Ideal) S512x13 .f32 0x00000000#32) (ix2 q k)
      = ∑ r : Fin 2048, lhs (ix2 r q) * rhs (ix2 r k) := by
  rw [Ideal.matmul_constant_zero_apply,
    ← Equiv.sum_comp (contrEquiv1 dot_S2048x512_S2048x13_S512x13_0_0_1_1_n_n 2048 rfl rfl).symm]
  refine Finset.sum_congr rfl fun r _ => ?_
  have hk := contrEquiv1_symm_val dot_S2048x512_S2048x13_S512x13_0_0_1_1_n_n 2048 rfl rfl r
  have el : dot_S2048x512_S2048x13_S512x13_0_0_1_1_n_n.lhsIdx (ix2 q k)
      ((contrEquiv1 dot_S2048x512_S2048x13_S512x13_0_0_1_1_n_n 2048 rfl rfl).symm r) = ix2 r q :=
    funext fun a => Fin.ext (by
      match a with
      | ⟨0, _⟩ => exact (lhs_axis0 _ _).trans hk
      | ⟨1, _⟩ => exact lhs_axis1 _ _)
  have er : dot_S2048x512_S2048x13_S512x13_0_0_1_1_n_n.rhsIdx (ix2 q k)
      ((contrEquiv1 dot_S2048x512_S2048x13_S512x13_0_0_1_1_n_n 2048 rfl rfl).symm r) = ix2 r k :=
    funext fun a => Fin.ext (by
      match a with
      | ⟨0, _⟩ => exact (rhs_axis0 _ _).trans hk
      | ⟨1, _⟩ => exact rhs_axis1 _ _)
  rw [el, er]

/-- The reset value of the carried sums is zero everywhere. -/
theorem reset_apply (q : Fin 512) (k : Fin 13) : k0_pay2 (F := Ideal) (ix2 q k) = 0 := by
  unfold k0_pay2
  show shapeCast S512x13 (broadcast S512x13 (Scalar.ofBits (F := Ideal) .f32 0x00000000#32)) shapeCasts_S512x13_S512x13 (ix2 q k)
    = (0 : EReal)
  rw [shapeCast_self]
  exact Ideal.ofBits_zero_f32

/-- The zero-one matrix of word equalities. -/
private theorem mask_apply (x1 : IVec S1x2048x1 32) (x2 : IVec S1x1x512 32) (r : Fin 2048) (q : Fin 512) :
    (sitofp .f32 (extui 32 (cmpi .eq
        (broadcastTo S2048x512 (shapeCast S2048x1 x1 shapeCasts_S1x2048x1_S2048x1) broadcasts_S2048x1_S2048x512)
        (broadcastTo S2048x512 (shapeCast S1x512 x2 shapeCasts_S1x1x512_S1x512) broadcasts_S1x512_S2048x512)) natLt_1_32)
      : FVec Ideal S2048x512 .f32) (ix2 r q)
      = if x1 (ix3 (0 : Fin 1) r (0 : Fin 1)) = x2 (ix3 (0 : Fin 1) (0 : Fin 1) q) then (1 : EReal) else 0 := by
  show FloatOps.sitofp (F := Ideal) .f32 ((IntOp.cmpi .eq
      (broadcastTo S2048x512 (shapeCast S2048x1 x1 shapeCasts_S1x2048x1_S2048x1) broadcasts_S2048x1_S2048x512 (ix2 r q))
      (broadcastTo S2048x512 (shapeCast S1x512 x2 shapeCasts_S1x1x512_S1x512) broadcasts_S1x512_S2048x512 (ix2 r q))).setWidth 32) = _
  rw [Cert.Words.eqMask, broadcastTo_a1_ab_apply, broadcastTo_1b_ab_apply, shapeCast_1ab_ab_apply, shapeCast_1ab_ab_apply]

/-! ### The matrix of summands -/

/-- Coordinate column `o` of the tile, as a `[2048, 1]` column. -/
private def colV (x0 : FVec Ideal S1x2048x3 .f32) (o : ℕ) (h : S2048x3.Slices ![0, o] S2048x1) : FVec Ideal S2048x1 .f32 :=
  extractStridedSlice S2048x1 ![0, o] (shapeCast S2048x3 x0 shapeCasts_S1x2048x3_S2048x3) h

/-- Row `r` of coordinate column `d` is coordinate `d` of point `r`. -/
private theorem colV_apply (x0 : FVec Ideal S1x2048x3 .f32) (d : Fin 3) (h : S2048x3.Slices ![0, d.val] S2048x1) (r : Fin 2048) :
    colV x0 d.val h (ix2 r (0 : Fin 1)) = x0 (ix3 (0 : Fin 1) r d) := by
  unfold colV
  rw [slice2_axis1_apply d.val _ h r (0 : Fin 1) d rfl]
  exact shapeCast_1ab_ab_apply x0 _ r d

/-- The thirteen columns side by side: ones, the three coordinates, their nine products. -/
private def featV (x0 : FVec Ideal S1x2048x3 .f32) : FVec Ideal S2048x13 .f32 :=
  concatenate S2048x13 1
    [⟨S2048x1, broadcast S2048x1 (Scalar.ofBits (F := Ideal) .f32 0x3F800000#32)⟩,
     ⟨S2048x1, colV x0 0 slices_S2048x3_o0_0_S2048x1⟩,
     ⟨S2048x1, colV x0 1 slices_S2048x3_o0_1_S2048x1⟩,
     ⟨S2048x1, colV x0 2 slices_S2048x3_o0_2_S2048x1⟩,
     ⟨S2048x1, mulf (colV x0 0 slices_S2048x3_o0_0_S2048x1) (colV x0 0 slices_S2048x3_o0_0_S2048x1)⟩,
     ⟨S2048x1, mulf (colV x0 0 slices_S2048x3_o0_0_S2048x1) (colV x0 1 slices_S2048x3_o0_1_S2048x1)⟩,
     ⟨S2048x1, mulf (colV x0 0 slices_S2048x3_o0_0_S2048x1) (colV x0 2 slices_S2048x3_o0_2_S2048x1)⟩,
     ⟨S2048x1, mulf (colV x0 1 slices_S2048x3_o0_1_S2048x1) (colV x0 0 slices_S2048x3_o0_0_S2048x1)⟩,
     ⟨S2048x1, mulf (colV x0 1 slices_S2048x3_o0_1_S2048x1) (colV x0 1 slices_S2048x3_o0_1_S2048x1)⟩,
     ⟨S2048x1, mulf (colV x0 1 slices_S2048x3_o0_1_S2048x1) (colV x0 2 slices_S2048x3_o0_2_S2048x1)⟩,
     ⟨S2048x1, mulf (colV x0 2 slices_S2048x3_o0_2_S2048x1) (colV x0 0 slices_S2048x3_o0_0_S2048x1)⟩,
     ⟨S2048x1, mulf (colV x0 2 slices_S2048x3_o0_2_S2048x1) (colV x0 1 slices_S2048x3_o0_1_S2048x1)⟩,
     ⟨S2048x1, mulf (colV x0 2 slices_S2048x3_o0_2_S2048x1) (colV x0 2 slices_S2048x3_o0_2_S2048x1)⟩]
    concatenates_S2048x1_S2048x1_S2048x1_S2048x1_S2048x1_S2048x1_S2048x1_S2048x1_S2048x1_S2048x1_S2048x1_S2048x1_S2048x1_S2048x13_d1

/-- Row `r`, column `k` of the matrix of summands is moment `k`'s summand of point `r`. -/
private theorem featV_apply (x0 : FVec Ideal S1x2048x3 .f32) (r : Fin 2048) (k : Fin 13) :
    featV x0 (ix2 r k) = summand (fun d => x0 (ix3 (0 : Fin 1) r d)) k := by
  unfold featV
  fin_cases k
  · refine (concat_col_apply _ _ r _ rfl _ rfl rfl).trans ?_
    rfl
  · refine (concat_col_apply _ _ r _ rfl _ rfl rfl).trans ?_
    exact colV_apply x0 0 _ r
  · refine (concat_col_apply _ _ r _ rfl _ rfl rfl).trans ?_
    exact colV_apply x0 1 _ r
  · refine (concat_col_apply _ _ r _ rfl _ rfl rfl).trans ?_
    exact colV_apply x0 2 _ r
  · refine (concat_col_apply _ _ r _ rfl _ rfl rfl).trans ?_
    exact congrArg₂ (· * ·) (colV_apply x0 0 _ r) (colV_apply x0 0 _ r)
  · refine (concat_col_apply _ _ r _ rfl _ rfl rfl).trans ?_
    exact congrArg₂ (· * ·) (colV_apply x0 0 _ r) (colV_apply x0 1 _ r)
  · refine (concat_col_apply _ _ r _ rfl _ rfl rfl).trans ?_
    exact congrArg₂ (· * ·) (colV_apply x0 0 _ r) (colV_apply x0 2 _ r)
  · refine (concat_col_apply _ _ r _ rfl _ rfl rfl).trans ?_
    exact congrArg₂ (· * ·) (colV_apply x0 1 _ r) (colV_apply x0 0 _ r)
  · refine (concat_col_apply _ _ r _ rfl _ rfl rfl).trans ?_
    exact congrArg₂ (· * ·) (colV_apply x0 1 _ r) (colV_apply x0 1 _ r)
  · refine (concat_col_apply _ _ r _ rfl _ rfl rfl).trans ?_
    exact congrArg₂ (· * ·) (colV_apply x0 1 _ r) (colV_apply x0 2 _ r)
  · refine (concat_col_apply _ _ r _ rfl _ rfl rfl).trans ?_
    exact congrArg₂ (· * ·) (colV_apply x0 2 _ r) (colV_apply x0 0 _ r)
  · refine (concat_col_apply _ _ r _ rfl _ rfl rfl).trans ?_
    exact congrArg₂ (· * ·) (colV_apply x0 2 _ r) (colV_apply x0 1 _ r)
  · refine (concat_col_apply _ _ r _ rfl _ rfl rfl).trans ?_
    exact congrArg₂ (· * ·) (colV_apply x0 2 _ r) (colV_apply x0 2 _ r)

/-- The step's payload is the carried sums plus the product of the two matrices. -/
private theorem pay3_eq (x0 : Vec Ideal S1x2048x3 .f32) (x1 : Vec Ideal S1x2048x1 .i32) (x2 : Vec Ideal S1x1x512 .i32)
    (acc : Vec Ideal S512x13 .f32) :
    k0_pay3 (F := Ideal) x0 x1 x2 acc
      = shapeCast S512x13 (addf acc (matmul dot_S2048x512_S2048x13_S512x13_0_0_1_1_n_n (some .fp32)
          (sitofp .f32 (extui 32 (cmpi .eq
            (broadcastTo S2048x512 (shapeCast S2048x1 x1 shapeCasts_S1x2048x1_S2048x1) broadcasts_S2048x1_S2048x512)
            (broadcastTo S2048x512 (shapeCast S1x512 x2 shapeCasts_S1x1x512_S1x512) broadcasts_S1x512_S2048x512)) natLt_1_32))
          (featV x0) (constant S512x13 .f32 0x00000000#32))) shapeCasts_S512x13_S512x13 := rfl

/-- One tile's step: the carried sum plus the summands of the tile's points whose word is the sampled one. -/
theorem step_apply (x0 : Vec Ideal S1x2048x3 .f32) (x1 : Vec Ideal S1x2048x1 .i32) (x2 : Vec Ideal S1x1x512 .i32)
    (acc : Vec Ideal S512x13 .f32) (q : Fin 512) (k : Fin 13) :
    k0_pay3 (F := Ideal) x0 x1 x2 acc (ix2 q k)
      = acc (ix2 q k) + ∑ r : Fin 2048,
          if x1 (ix3 (0 : Fin 1) r (0 : Fin 1)) = x2 (ix3 (0 : Fin 1) (0 : Fin 1) q)
          then summand (fun d => x0 (ix3 (0 : Fin 1) r d)) k else 0 := by
  rw [pay3_eq, shapeCast_self]
  refine (addf_apply _ _ _).trans (congrArg (acc (ix2 q k) + ·) ?_)
  refine (matmul_at _ _ q k).trans (Finset.sum_congr rfl fun r _ => ?_)
  rw [mask_apply, featV_apply]
  -- a product with one is the factor, with zero is zero
  split_ifs
  · exact one_mul _
  · exact zero_mul _

/-! ### The finish: from a row's thirteen sums to its twelve statistics -/

/-- The divisor column: the count column raised to at least one. -/
private def divV (v : FVec Ideal S512x13 .f32) : FVec Ideal S512x1 .f32 :=
  maximumf (extractStridedSlice S512x1 ![0, 0] v slices_S512x13_o0_0_S512x1)
    (broadcast S512x1 (Scalar.ofBits (F := Ideal) .f32 0x3F800000#32))

private theorem divV_apply (v : FVec Ideal S512x13 .f32) (q : Fin 512) :
    divV v (ix2 q (0 : Fin 1)) = divisor (fun k' => v (ix2 q k')) := by
  unfold divV
  refine (maximumf_apply _ _ _).trans ?_
  rw [slice2_axis1_apply 0 v _ q (0 : Fin 1) (0 : Fin 13) rfl]
  rfl

/-- The three mean columns: the coordinate sums over the divisor. -/
private def meanV (v : FVec Ideal S512x13 .f32) : FVec Ideal S512x3 .f32 :=
  divf (extractStridedSlice S512x3 ![0, 1] v slices_S512x13_o0_1_S512x3)
    (broadcastTo S512x3 (divV v) broadcasts_S512x1_S512x3)

private theorem meanV_apply (v : FVec Ideal S512x13 .f32) (q : Fin 512) (d : Fin 3) :
    meanV v (ix2 q d) = mean (fun k' => v (ix2 q k')) d := by
  unfold meanV
  refine (divf_apply _ _ _).trans ?_
  rw [slice2_axis1_apply 1 v _ q d ⟨1 + d.val, by omega⟩ rfl, broadcastTo_a1_ab_apply, divV_apply]
  rfl

/-- Mean column `o` as a `[512, 1]` column. -/
private def meanCol (v : FVec Ideal S512x13 .f32) (o : ℕ) (h : S512x3.Slices ![0, o] S512x1) : FVec Ideal S512x1 .f32 :=
  extractStridedSlice S512x1 ![0, o] (meanV v) h

private theorem meanCol_apply (v : FVec Ideal S512x13 .f32) (d : Fin 3) (h : S512x3.Slices ![0, d.val] S512x1) (q : Fin 512) :
    meanCol v d.val h (ix2 q (0 : Fin 1)) = mean (fun k' => v (ix2 q k')) d := by
  unfold meanCol
  rw [slice2_axis1_apply d.val _ h q (0 : Fin 1) d rfl]
  exact meanV_apply v q d

/-- The nine products of two means, side by side. -/
private def prodV (v : FVec Ideal S512x13 .f32) : FVec Ideal S512x9 .f32 :=
  concatenate S512x9 1
    [⟨S512x1, mulf (meanCol v 0 slices_S512x3_o0_0_S512x1) (meanCol v 0 slices_S512x3_o0_0_S512x1)⟩,
     ⟨S512x1, mulf (meanCol v 0 slices_S512x3_o0_0_S512x1) (meanCol v 1 slices_S512x3_o0_1_S512x1)⟩,
     ⟨S512x1, mulf (meanCol v 0 slices_S512x3_o0_0_S512x1) (meanCol v 2 slices_S512x3_o0_2_S512x1)⟩,
     ⟨S512x1, mulf (meanCol v 1 slices_S512x3_o0_1_S512x1) (meanCol v 0 slices_S512x3_o0_0_S512x1)⟩,
     ⟨S512x1, mulf (meanCol v 1 slices_S512x3_o0_1_S512x1) (meanCol v 1 slices_S512x3_o0_1_S512x1)⟩,
     ⟨S512x1, mulf (meanCol v 1 slices_S512x3_o0_1_S512x1) (meanCol v 2 slices_S512x3_o0_2_S512x1)⟩,
     ⟨S512x1, mulf (meanCol v 2 slices_S512x3_o0_2_S512x1) (meanCol v 0 slices_S512x3_o0_0_S512x1)⟩,
     ⟨S512x1, mulf (meanCol v 2 slices_S512x3_o0_2_S512x1) (meanCol v 1 slices_S512x3_o0_1_S512x1)⟩,
     ⟨S512x1, mulf (meanCol v 2 slices_S512x3_o0_2_S512x1) (meanCol v 2 slices_S512x3_o0_2_S512x1)⟩]
    concatenates_S512x1_S512x1_S512x1_S512x1_S512x1_S512x1_S512x1_S512x1_S512x1_S512x9_d1

/-- Column `3 i + j` of the products is the product of means `i` and `j`. -/
private theorem prodV_apply (v : FVec Ideal S512x13 .f32) (q : Fin 512) (e : Fin 9) :
    prodV v (ix2 q e)
      = mean (fun k' => v (ix2 q k')) ⟨e.val / 3, by omega⟩ * mean (fun k' => v (ix2 q k')) ⟨e.val % 3, by omega⟩ := by
  unfold prodV
  fin_cases e
  · refine (concat_col_apply _ _ q _ rfl _ rfl rfl).trans ?_
    exact congrArg₂ (· * ·) (meanCol_apply v 0 _ q) (meanCol_apply v 0 _ q)
  · refine (concat_col_apply _ _ q _ rfl _ rfl rfl).trans ?_
    exact congrArg₂ (· * ·) (meanCol_apply v 0 _ q) (meanCol_apply v 1 _ q)
  · refine (concat_col_apply _ _ q _ rfl _ rfl rfl).trans ?_
    exact congrArg₂ (· * ·) (meanCol_apply v 0 _ q) (meanCol_apply v 2 _ q)
  · refine (concat_col_apply _ _ q _ rfl _ rfl rfl).trans ?_
    exact congrArg₂ (· * ·) (meanCol_apply v 1 _ q) (meanCol_apply v 0 _ q)
  · refine (concat_col_apply _ _ q _ rfl _ rfl rfl).trans ?_
    exact congrArg₂ (· * ·) (meanCol_apply v 1 _ q) (meanCol_apply v 1 _ q)
  · refine (concat_col_apply _ _ q _ rfl _ rfl rfl).trans ?_
    exact congrArg₂ (· * ·) (meanCol_apply v 1 _ q) (meanCol_apply v 2 _ q)
  · refine (concat_col_apply _ _ q _ rfl _ rfl rfl).trans ?_
    exact congrArg₂ (· * ·) (meanCol_apply v 2 _ q) (meanCol_apply v 0 _ q)
  · refine (concat_col_apply _ _ q _ rfl _ rfl rfl).trans ?_
    exact congrArg₂ (· * ·) (meanCol_apply v 2 _ q) (meanCol_apply v 1 _ q)
  · refine (concat_col_apply _ _ q _ rfl _ rfl rfl).trans ?_
    exact congrArg₂ (· * ·) (meanCol_apply v 2 _ q) (meanCol_apply v 2 _ q)

/-- The nine covariance columns: the product sums over the divisor, less the products of the means. -/
private def covV (v : FVec Ideal S512x13 .f32) : FVec Ideal S512x9 .f32 :=
  subf (divf (extractStridedSlice S512x9 ![0, 4] v slices_S512x13_o0_4_S512x9)
      (broadcastTo S512x9 (divV v) broadcasts_S512x1_S512x9)) (prodV v)

private theorem covV_apply (v : FVec Ideal S512x13 .f32) (q : Fin 512) (e : Fin 9) (c : Fin 13) (hc : c.val = 4 + e.val) :
    covV v (ix2 q e)
      = Ideal.div (v (ix2 q c)) (divisor (fun k' => v (ix2 q k')))
        - mean (fun k' => v (ix2 q k')) ⟨e.val / 3, by omega⟩ * mean (fun k' => v (ix2 q k')) ⟨e.val % 3, by omega⟩ := by
  unfold covV
  refine (subf_apply _ _ _).trans ?_
  rw [prodV_apply]
  refine congrArg (· - _) ?_
  refine (divf_apply _ _ _).trans ?_
  rw [slice2_axis1_apply 4 v _ q e c hc, broadcastTo_a1_ab_apply, divV_apply]

/-- The finish's payload is the means and covariances side by side, under a leading unit axis. -/
private theorem pay1_eq (v : Vec Ideal S512x13 .f32) :
    k0_pay1 (F := Ideal) v
      = shapeCast S1x512x12 (concatenate S512x12 1 [⟨S512x3, meanV v⟩, ⟨S512x9, covV v⟩] concatenates_S512x3_S512x9_S512x12_d1)
          shapeCasts_S512x12_S1x512x12 := rfl

/-- The finish: row `q` of the block written back holds the statistics of row `q` of the carried sums. -/
theorem finish_apply (v : Vec Ideal S512x13 .f32) (q : Fin 512) (k : Fin 12) :
    k0_pay1 (F := Ideal) v (ix3 (0 : Fin 1) q k) = stats (fun k' => v (ix2 q k')) k := by
  rw [pay1_eq, shapeCast_ab_1ab_apply]
  unfold stats
  by_cases hk : k.val < 3
  · -- a mean: the left piece
    rw [dif_pos hk]
    refine (concatenate_pair_apply_left (t := S512x12) (s₁ := S512x3) (s₂ := S512x9) 1 _ _ _ (ix2 q k) rfl (ix2 q (⟨k.val, hk⟩ : Fin 3)) (fun b => ?_)).trans
      (meanV_apply v q ⟨k.val, hk⟩)
    match b with
    | ⟨0, _⟩ => rfl
    | ⟨1, _⟩ => rfl
  · -- a covariance: the right piece, three columns in
    rw [dif_neg hk]
    have hk9 : k.val - 3 < 9 := by omega
    refine (concatenate_pair_apply_right (t := S512x12) (s₁ := S512x3) (s₂ := S512x9) 1 _ _ _ (ix2 q k) rfl rfl (ix2 q (⟨k.val - 3, hk9⟩ : Fin 9)) (fun b => ?_) ?_).trans
      (covV_apply v q ⟨k.val - 3, hk9⟩ ⟨k.val + 1, by omega⟩ (by show k.val + 1 = 4 + (k.val - 3); omega))
    · match b with
      | ⟨0, _⟩ => exact fun _ => rfl
      | ⟨1, _⟩ => exact fun hb => absurd rfl hb
    · show k.val - 3 + 3 = k.val
      omega

end Cert.KernelIdeal.Payload

end
-- ==== Proof.KernelAccum.lean ====
/-
  The carried sums after the last tile of a batch. The grid visits batch `b`'s 64 tiles of 2048 points in order;
  the first resets the sums and every tile adds, for each sampled position and moment, the summands of its points
  whose voxel word is the sampled one. By induction over the tiles, after tile `j` the sums hold the summands of
  the batch's first `2048 (j + 1)` points; after the last tile, of all 131072: the voxel's sum.
-/
import proofs.«413474_j66005057405413_2_alg».proof.Proof.Gen.KernelIdeal.Value
import proofs.«413474_j66005057405413_2_alg».proof.Proof.KernelPieces
import proofs.«413474_j66005057405413_2_alg».proof.Proof.KernelPayload
import proofs.«413474_j66005057405413_2_alg».proof.Proof.Moments

noncomputable section

open scoped BigOperators

namespace Cert.KernelIdeal.Sums

open Cert.KernelIdeal Cert.KernelIdeal.Gen Cert.KernelIdeal.Value Idealize.ShloMosaic Idealize.ShloMosaic.TcCoe
open Idealize.ShloMosaic.ValueIdx Cert.Moments

variable (m : (ℓ : Loc nD τ sig) → Buf (Elt Ideal) ℓ)

/-- The points as the region finds them. -/
abbrev pts (c : Dev nD) : SX.Idx → EReal := V m c main_arg0

/-- The points' voxel words as the region finds them (its second operand, one word per point). -/
abbrev ptWord (c : Dev nD) : SF.Idx → BitVec 32 := fun i =>
  (V m c main_v22 : S2x131072x1.Idx → BitVec 32)
    (ix3 (⟨(i 0).val, (i 0).isLt⟩ : Fin 2) (⟨(i 1).val, (i 1).isLt⟩ : Fin 131072) (0 : Fin 1))

/-- The sampled voxel words as the region finds them (its third operand, one word per sampled position). -/
abbrev keyWord (c : Dev nD) : SQ.Idx → BitVec 32 := fun i =>
  (V m c main_v23 : S2x1x512.Idx → BitVec 32)
    (ix3 (⟨(i 0).val, (i 0).isLt⟩ : Fin 2) (0 : Fin 1) (⟨(i 1).val, (i 1).isLt⟩ : Fin 512))

/-- The windows' index maps, decided once over the grid: at point `t` the points' window sits at block
    `(t / 64, t % 64, 0)`, the words' window at `(t / 64, t % 64, 0)`, the sampled words' at `(t / 64, 0, 0)`. -/
private theorem pts_index : ∀ t : Fin cfg0.N, win0_0.index t (0 : Fin 3) = t.val / 64 ∧ win0_0.index t (1 : Fin 3) = t.val % 64 ∧ win0_0.index t (2 : Fin 3) = 0 :=
  (by decide +kernel : ∀ t : Fin grid0.N, win0_0.index t (0 : Fin 3) = t.val / 64 ∧ win0_0.index t (1 : Fin 3) = t.val % 64 ∧ win0_0.index t (2 : Fin 3) = 0)

private theorem word_index : ∀ t : Fin cfg0.N, win0_1.index t (0 : Fin 3) = t.val / 64 ∧ win0_1.index t (1 : Fin 3) = t.val % 64 ∧ win0_1.index t (2 : Fin 3) = 0 :=
  (by decide +kernel : ∀ t : Fin grid0.N, win0_1.index t (0 : Fin 3) = t.val / 64 ∧ win0_1.index t (1 : Fin 3) = t.val % 64 ∧ win0_1.index t (2 : Fin 3) = 0)

private theorem key_index : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)

/-- The points' block at point `t`: rows `2048 (t % 64) … + 2047` of batch `t / 64`. -/
private theorem ptsBlock_apply (c : Dev nD) (t : Fin cfg0.N) (r : Fin 2048) (d : Fin 3) (b : Fin 2) (n : Fin 131072)
    (hb : b.val = t.val / 64) (hn : n.val = 2048 * (t.val % 64) + r.val) :
    (iblk m c 0 t : Vec Ideal S1x2048x3 .f32) (ix3 (0 : Fin 1) r d) = pts m c (ix3 b n d) := by
  obtain ⟨h0, h1, h2⟩ := pts_index t
  unfold iblk
  rw [View.read_apply]
  show V m c main_arg0 (((cfg0.win 0).blk t).view.emb (ix3 (0 : Fin 1) r d)) = V m c main_arg0 (ix3 b n d)
  congr 1
  funext a
  apply Fin.ext
  match a with
  | ⟨0, _⟩ => show win0_0.index t (0 : Fin 3) * 1 + 1 * 0 = b.val; rw [h0, hb]; omega
  | ⟨1, _⟩ => show win0_0.index t (1 : Fin 3) * 2048 + 1 * r.val = n.val; rw [h1, hn]; omega
  | ⟨2, _⟩ => show win0_0.index t (2 : Fin 3) * 3 + 1 * d.val = d.val; rw [h2]; omega

/-- The words' block at point `t`: the words of the same rows. -/
private theorem wordBlock_apply (c : Dev nD) (t : Fin cfg0.N) (r : Fin 2048) (b : Fin 2) (n : Fin 131072)
    (hb : b.val = t.val / 64) (hn : n.val = 2048 * (t.val % 64) + r.val) :
    (iblk m c 1 t : Vec Ideal S1x2048x1 .i32) (ix3 (0 : Fin 1) r (0 : Fin 1)) = ptWord m c (ix2 b n) := by
  obtain ⟨h0, h1, h2⟩ := word_index t
  unfold iblk
  rw [View.read_apply]
  show V m c main_v22 (((cfg0.win 1).blk t).view.emb (ix3 (0 : Fin 1) r (0 : Fin 1)))
    = V m c main_v22 (ix3 (⟨b.val, b.isLt⟩ : Fin 2) (⟨n.val, n.isLt⟩ : Fin 131072) (0 : Fin 1))
  congr 1
  funext a
  apply Fin.ext
  match a with
  | ⟨0, _⟩ => show win0_1.index t (0 : Fin 3) * 1 + 1 * 0 = b.val; rw [h0, hb]; omega
  | ⟨1, _⟩ => show win0_1.index t (1 : Fin 3) * 2048 + 1 * r.val = n.val; rw [h1, hn]; omega
  | ⟨2, _⟩ => show win0_1.index t (2 : Fin 3) * 1 + 1 * 0 = 0; rw [h2]

/-- The sampled words' block at point `t`: the sampled words of batch `t / 64`. -/
private theorem keyBlock_apply (c : Dev nD) (t : Fin cfg0.N) (q : Fin 512) (b : Fin 2) (hb : b.val = t.val / 64) :
    (iblk m c 2 t : Vec Ideal S1x1x512 .i32) (ix3 (0 : Fin 1) (0 : Fin 1) q) = keyWord m c (ix2 b q) := by
  obtain ⟨h0, h1, h2⟩ := key_index t
  unfold iblk
  rw [View.read_apply]
  show V m c main_v23 (((cfg0.win 2).blk t).view.emb (ix3 (0 : Fin 1) (0 : Fin 1) q))
    = V m c main_v23 (ix3 (⟨b.val, b.isLt⟩ : Fin 2) (0 : Fin 1) (⟨q.val, q.isLt⟩ : Fin 512))
  congr 1
  funext a
  apply Fin.ext
  match a with
  | ⟨0, _⟩ => show win0_2.index t (0 : Fin 3) * 1 + 1 * 0 = b.val; rw [h0, hb]; omega
  | ⟨1, _⟩ => show win0_2.index t (1 : Fin 3) * 1 + 1 * 0 = 0; rw [h1]
  | ⟨2, _⟩ => show win0_2.index t (2 : Fin 3) * 512 + 1 * q.val = q.val; rw [h2]; omega

/-- What the batch's point `n` adds to moment `k` of the voxel whose word is `key` (nothing past the batch's end). -/
private def addend (c : Dev nD) (b : Fin 2) (key : BitVec 32) (k : Fin 13) (n : ℕ) : EReal :=
  if h : n < 131072 then
    (if ptWord m c (ix2 b (⟨n, h⟩ : Fin 131072)) = key
     then summand (fun d => pts m c (ix3 b (⟨n, h⟩ : Fin 131072) d)) k else 0)
  else 0

/-- The voxel's sum is the sum of the batch's 131072 addends. -/
private theorem voxelSum_eq_range (c : Dev nD) (b : Fin 2) (key : BitVec 32) (k : Fin 13) :
    voxelSum (pts m c) (ptWord m c) b key k = ∑ n ∈ Finset.range 131072, addend m c b key k n := by
  rw [Finset.sum_range]
  unfold voxelSum
  refine Finset.sum_congr rfl fun n _ => ?_
  unfold addend
  rw [dif_pos n.isLt]

/-- What a tile adds at sampled position `q`, moment `k`, from its three blocks: the summands of its 2048 points
    whose word is the sampled one. -/
private def tileTerm (x0 : Vec Ideal S1x2048x3 .f32) (x1 : Vec Ideal S1x2048x1 .i32) (x2 : Vec Ideal S1x1x512 .i32)
    (q : Fin 512) (k : Fin 13) : EReal :=
  ∑ r : Fin 2048,
    if x1 (ix3 (0 : Fin 1) r (0 : Fin 1)) = x2 (ix3 (0 : Fin 1) (0 : Fin 1) q)
    then summand (fun d => x0 (ix3 (0 : Fin 1) r d)) k else 0

/-- The step adds the tile's term to what the sums held. -/
private theorem step_tile (x0 : Vec Ideal S1x2048x3 .f32) (x1 : Vec Ideal S1x2048x1 .i32) (x2 : Vec Ideal S1x1x512 .i32)
    (acc : Vec Ideal S512x13 .f32) (q : Fin 512) (k : Fin 13) :
    k0_pay3 (F := Ideal) x0 x1 x2 acc (ix2 q k) = acc (ix2 q k) + tileTerm x0 x1 x2 q k := by
  unfold tileTerm
  exact Payload.step_apply x0 x1 x2 acc q k

/-- A tile's term as a sum over a range of naturals, once each of its 2048 summands is named by its position. -/
private theorem tileTerm_eq_range (x0 : Vec Ideal S1x2048x3 .f32) (x1 : Vec Ideal S1x2048x1 .i32) (x2 : Vec Ideal S1x1x512 .i32)
    (q : Fin 512) (k : Fin 13) (f : ℕ → EReal)
    (h : ∀ r : Fin 2048,
      (if x1 (ix3 (0 : Fin 1) r (0 : Fin 1)) = x2 (ix3 (0 : Fin 1) (0 : Fin 1) q)
       then summand (fun d => x0 (ix3 (0 : Fin 1) r d)) k else 0) = f r.val) :
    tileTerm x0 x1 x2 q k = ∑ r ∈ Finset.range 2048, f r := by
  rw [Finset.sum_range]
  unfold tileTerm
  exact Finset.sum_congr rfl fun r _ => h r

/-- Tile `j` of batch `b` (grid point `t`) adds the addends of the batch's points `2048 j … 2048 j + 2047`. -/
private theorem tile_eq_addends (c : Dev nD) (t : Fin cfg0.N) (b : Fin 2) (j : ℕ) (hb : b.val = t.val / 64) (hj : t.val % 64 = j)
    (q : Fin 512) (k : Fin 13) :
    tileTerm (iblk m c 0 t) (iblk m c 1 t) (iblk m c 2 t) q k
      = ∑ r ∈ Finset.range 2048, addend m c b (keyWord m c (ix2 b q)) k (2048 * j + r) := by
  subst hj
  refine tileTerm_eq_range (iblk m c 0 t) (iblk m c 1 t) (iblk m c 2 t) q k
    (fun r => addend m c b (keyWord m c (ix2 b q)) k (2048 * (t.val % 64) + r)) fun r => ?_
  have hlt : 2048 * (t.val % 64) + r.val < 131072 := by
    have := Nat.mod_lt t.val (show 0 < 64 by decide); have := r.isLt; omega
  show _ = addend m c b (keyWord m c (ix2 b q)) k (2048 * (t.val % 64) + r.val)
  unfold addend
  rw [dif_pos hlt, wordBlock_apply m c t r b ⟨2048 * (t.val % 64) + r.val, hlt⟩ hb rfl, keyBlock_apply m c t q b hb]
  refine if_congr Iff.rfl ?_ rfl
  refine congrFun (congrArg summand (funext fun d => ?_)) k
  exact ptsBlock_apply m c t r d b ⟨2048 * (t.val % 64) + r.val, hlt⟩ hb rfl

/-- The first tile of a batch resets the sums and adds from zero: it leaves its own term, whatever the sums held. -/
private theorem firstTile_apply (c : Dev nD) (n : ℕ) (hb : n < cfg0.N) (h0 : n % 64 = 0) (acc : Vec Ideal S512x13 .f32)
    (q : Fin 512) (k : Fin 13) :
    scAt0_0 m c n hb acc (ix2 q k) = tileTerm (iblk m c 0 (⟨n, hb⟩ : Fin cfg0.N)) (iblk m c 1 (⟨n, hb⟩ : Fin cfg0.N)) (iblk m c 2 (⟨n, hb⟩ : Fin cfg0.N)) q k := by
  have h1 : ¬n % 64 = 63 := by omega
  unfold scAt0_0
  rw [dif_pos h0, dif_neg h1]
  refine (congrFun (Pieces.firstTile_sums (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
    ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 q k)).trans ?_
  refine (step_tile (iblk m c 0 (⟨n, hb⟩ : Fin cfg0.N)) (iblk m c 1 (⟨n, hb⟩ : Fin cfg0.N)) (iblk m c 2 (⟨n, hb⟩ : Fin cfg0.N)) (k0_pay2 (F := Ideal)) q k).trans ?_
  rw [Payload.reset_apply, zero_add]

/-- Every later tile adds its term to what the tile before left. -/
private theorem laterTile_apply (c : Dev nD) (n : ℕ) (hb : n < cfg0.N) (h0 : ¬n % 64 = 0) (acc : Vec Ideal S512x13 .f32)
    (q : Fin 512) (k : Fin 13) :
    scAt0_0 m c n hb acc (ix2 q k) = acc (ix2 q k) + tileTerm (iblk m c 0 (⟨n, hb⟩ : Fin cfg0.N)) (iblk m c 1 (⟨n, hb⟩ : Fin cfg0.N)) (iblk m c 2 (⟨n, hb⟩ : Fin cfg0.N)) q k := by
  unfold scAt0_0
  rw [dif_neg h0]
  by_cases h1 : n % 64 = 63
  · rw [dif_pos h1]
    refine (congrFun (Pieces.lastTile_sums (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 q k)).trans ?_
    exact step_tile (iblk m c 0 (⟨n, hb⟩ : Fin cfg0.N)) (iblk m c 1 (⟨n, hb⟩ : Fin cfg0.N)) (iblk m c 2 (⟨n, hb⟩ : Fin cfg0.N)) acc q k
  · rw [dif_neg h1]
    refine (congrFun (Pieces.middleTile_sums (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _)
      (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 q k)).trans ?_
    exact step_tile (iblk m c 0 (⟨n, hb⟩ : Fin cfg0.N)) (iblk m c 1 (⟨n, hb⟩ : Fin cfg0.N)) (iblk m c 2 (⟨n, hb⟩ : Fin cfg0.N)) acc q k

/-- After tile `j` of batch `b` the sums hold the addends of the batch's first `2048 (j + 1)` points: the first tile
    leaves its own 2048, and each later tile appends its 2048 to the range. -/
private theorem tiles_apply (c : Dev nD) (b : Fin 2) (q : Fin 512) (k : Fin 13) (B : ℕ) (hB : B = 64 * b.val) :
    ∀ (j : ℕ) (_ : j < 64) (h : B + j < cfg0.N),
      Pipeline.accAt (fun n h => scAt0_0 m c n h (VS0_0.read (Elt Ideal) VS0_0.junk)) (scAt0_0 m c) B j h (ix2 q k)
        = ∑ n ∈ Finset.range (2048 * (j + 1)), addend m c b (keyWord m c (ix2 b q)) k n
  | 0, _, h => by
    rw [Pipeline.accAt_zero]
    refine (firstTile_apply m c B h (by omega) _ q k).trans ?_
    rw [tile_eq_addends m c ⟨B, h⟩ b 0 (by show b.val = B / 64; omega) (by show B % 64 = 0; omega) q k]
    show _ = ∑ n ∈ Finset.range 2048, addend m c b (keyWord m c (ix2 b q)) k n
    exact Finset.sum_congr rfl fun r _ => by rw [Nat.mul_zero, Nat.zero_add]
  | j + 1, hj, h => by
    rw [Pipeline.accAt_succ]
    refine (laterTile_apply m c (B + (j + 1)) h (by omega) _ q k).trans ?_
    rw [tiles_apply c b q k B hB j (by omega) (Nat.lt_of_succ_lt h),
      tile_eq_addends m c ⟨B + (j + 1), h⟩ b (j + 1) (by show b.val = (B + (j + 1)) / 64; omega)
        (by show (B + (j + 1)) % 64 = j + 1; omega) q k,
      show 2048 * (j + 1 + 1) = 2048 * (j + 1) + 2048 by omega, Finset.sum_range_add]

/-- After the last tile of batch `b` the carried sums are the voxel sums of the sampled positions. -/
theorem sums_full (c : Dev nD) (b : Fin 2) (t : Fin cfg0.N) (ht : t.val = 64 * b.val + 63) (q : Fin 512) (k : Fin 13) :
    (outsAt0 m c t.val t.isLt).2 (ix2 q k)
      = voxelSum (pts m c) (ptWord m c) b (keyWord m c (ix2 b q)) k := by
  have hdiv : 64 * (t.val / 64) = 64 * b.val := by omega
  have hmod : t.val % 64 = 63 := by omega
  refine (congrFun (soutsAt0_0_eq m c t) (ix2 q k)).trans ?_
  refine (tiles_apply m c b q k (64 * (t.val / 64)) hdiv (t.val % 64) (by omega) _).trans ?_
  rw [voxelSum_eq_range, hmod]

end Cert.KernelIdeal.Sums

end
-- ==== Proof.KernelValue.lean ====
/-
  The kernel's result array. Only the last tile of a batch writes the output block, the finish of the carried
  sums, and that block is the batch's 512 rows of the result; the two batches' blocks cover the array. So the array
  ends as the function `G` of the points, the points' voxel words and the sampled voxel words.
-/
import proofs.«413474_j66005057405413_2_alg».proof.Proof.KernelAccum

noncomputable section

namespace Cert.KernelIdeal.Result

open Cert.KernelIdeal Cert.KernelIdeal.Gen Cert.KernelIdeal.Value Cert.KernelIdeal.Sums
open Idealize.ShloMosaic Idealize.ShloMosaic.TcCoe Idealize.SL.Sem Idealize.ShloMosaic.ValueIdx Cert.Moments
open Idealize.ShloMosaic.Pipeline (Dat)

variable (m : (ℓ : Loc nD τ sig) → Buf (Elt Ideal) ℓ) (ρ : Dev nD → PrngReg)

/-! ## What the last tile of a batch writes back

Only a point `t` with `t % 64 = 63`, the last tile of batch `t / 64`, writes the output block back. The block it
leaves is the finish of the sums it has just updated, and those are the voxel sums of the batch's sampled positions;
so element `(0, q, k)` of the block is statistic `k` of the voxel sampled at position `q` of batch `t / 64`, which
is `G` at `(t / 64, q, k)`: the element of the result array the block's element `(0, q, k)` lands on. -/

/-- The output window's printed index map, decided over the grid: the block of point `t` is batch `t / 64`, from
    row 0 and column 0. -/
private theorem idx_facts : ∀ t : Fin cfg0.N, win0_3.index t (0 : Fin 3) = t.val / 64
    ∧ win0_3.index t (1 : Fin 3) = 0 ∧ win0_3.index t (2 : Fin 3) = 0 :=
  (by decide +kernel : ∀ t : Fin grid0.N, _)

/-- What a writing point writes back is its block of `G`. -/
private theorem flushed_eq (c : Dev nD) (t : Fin cfg0.N) (hf : (cfg0.win 3).flush t = true) :
    (dats m 0 c).flushed 3 t
      = ((cfg0.win 3).blk t).view.read (Elt Ideal) (G (pts m c) (ptWord m c) (keyWord m c)) := by
  have h1 : t.val % 64 = 63 := (flush0_3 t).mp hf
  have h0 : ¬ t.val % 64 = 0 := by omega
  have hN : t.val < 128 := lt_of_lt_of_eq t.isLt N_0
  -- the sums the last tile leaves: the step over what the tile before left
  have hs : (outsAt0 m c t.val t.isLt).2
      = k0_pay3 (iblk m c 0 t) (iblk m c 1 t) (iblk m c 2 t)
          (outsAt0 m c (t.val - 1) (Nat.lt_of_le_of_lt (Nat.sub_le _ _) t.isLt)).2 := by
    rw [outsAt0_C m c t h0 h1]
    exact Pieces.lastTile_sums (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2
  -- the block the last tile leaves: the finish of those same sums
  rw [flushed3_C m c t h0 h1, Pieces.lastTile_block (F := Ideal) c (grid0.coords t) (ms0_0 t) (hs0_0 t) (ms0_1 t) (hs0_1 t) (ms0_2 t) (hs0_2 t) (ms0_3 t) (hs0_3 t)
      scM0_0 (Memref.isWhole_whole _) (fun h => h0 ((hcond0_0 t).mp h)) ((hcond0_1 t).mpr h1)
      (iblk m c 0 t) (iblk m c 1 t) (iblk m c 2 t)
      (outsAt0 m c (t.val - 1) (Nat.lt_of_le_of_lt (Nat.sub_le _ _) t.isLt)).2, ← hs]
  funext j
  obtain ⟨e0, e1, e2⟩ := idx_facts t
  have hj0 : (j 0).val < 1 := (j 0).isLt
  have hj1 : (j 1).val < 512 := (j 1).isLt
  have hj2 : (j 2).val < 12 := (j 2).isLt
  obtain ⟨b, hb⟩ : ∃ b : Fin 2, b.val = t.val / 64 := ⟨⟨t.val / 64, by omega⟩, rfl⟩
  obtain ⟨q, hq⟩ : ∃ q : Fin 512, q.val = (j 1).val := ⟨⟨(j 1).val, hj1⟩, rfl⟩
  obtain ⟨k, hk⟩ : ∃ k : Fin 12, k.val = (j 2).val := ⟨⟨(j 2).val, hj2⟩, rfl⟩
  -- the block's element `j` is `(0, q, k)` …
  have hx : (cfg0.win 3).xinj (grid0.coords t) j = ix3 (0 : Fin 1) q k := by
    funext a; apply Fin.ext
    match a with
    | ⟨0, _⟩ => show (j 0).val = 0; omega
    | ⟨1, _⟩ => show (j 1).val = q.val; omega
    | ⟨2, _⟩ => show (j 2).val = k.val; omega
  -- … and lands on the array's element `(t / 64, q, k)`
  have he : ((cfg0.win 3).blk t).view.emb j = ix3 b q k := by
    funext a; apply Fin.ext
    match a with
    | ⟨0, _⟩ => show win0_3.index t (0 : Fin 3) * 1 + 1 * (j 0).val = b.val; omega
    | ⟨1, _⟩ => show win0_3.index t (1 : Fin 3) * 512 + 1 * (j 1).val = q.val; omega
    | ⟨2, _⟩ => show win0_3.index t (2 : Fin 3) * 12 + 1 * (j 2).val = k.val; omega
  show k0_pay1 _ ((cfg0.win 3).xinj (grid0.coords t) j) = _
  rw [View.read_apply, hx, he, Payload.finish_apply, G_apply]
  -- row `q` of the sums after the batch's last tile: the thirteen voxel sums of the voxel sampled at `q`
  have hv : (fun k' : Fin 13 => (outsAt0 m c t.val t.isLt).2 (ix2 q k'))
      = voxelSum (pts m c) (ptWord m c) b (keyWord m c (ix2 b q)) :=
    funext fun k' => sums_full m c b t (by omega) q k'
  rw [hv]
  rfl

/-! ## The two blocks cover the array -/

/-- An index of the result array is in point `t`'s block iff each coordinate is in the block's range on its axis. -/
private theorem mem_blk (t : Fin cfg0.N) (i : S2x512x12.Idx) :
    i ∈ ((cfg0.win 3).blk t).view.set ↔ ∀ a : Fin 3, win0_3.index t a * S1x512x12.size a ≤ (i a).val
      ∧ (i a).val < win0_3.index t a * S1x512x12.size a + S1x512x12.size a := by
  show i ∈ ((View.whole main_v24).slice (win0_3.rect t)).set ↔ _
  rw [View.set_slice_whole, Rect.mem_set_unit]
  exact Iff.rfl

/-- Every index `(b, q, k)` of the result array lies in the block of the last tile of batch `b`, point `64 b + 63`. -/
private theorem cover (i : S2x512x12.Idx) :
    ∃ t : Fin cfg0.N, (cfg0.win 3).flush t = true ∧ i ∈ ((cfg0.win 3).blk t).view.set := by
  have hi0 : (i 0).val < 2 := (i 0).isLt
  have hi1 : (i 1).val < 512 := (i 1).isLt
  have hi2 : (i 2).val < 12 := (i 2).isLt
  obtain ⟨t, ht⟩ : ∃ t : Fin cfg0.N, t.val = 64 * (i 0).val + 63 :=
    ⟨⟨64 * (i 0).val + 63, by rw [show cfg0.N = 128 from N_0]; omega⟩, rfl⟩
  obtain ⟨e0, e1, e2⟩ := idx_facts t
  refine ⟨t, (flush0_3 t).mpr (by omega), ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 12 ≤ (i 2).val ∧ (i 2).val < win0_3.index t (2 : Fin 3) * 12 + 12
    omega

/-- The result array after the run. -/
theorem final (c : Dev nD) :
    (dats m 0 c).arrAt 3 cfg0.N = G (pts m c) (ptWord m c) (keyWord m c) := by
  -- every writing point writes its block of `G`, and the writing points' blocks cover the array
  exact (dats m 0 c).arrAt_eq_of_cover 3 (G (pts m c) (ptWord m c) (keyWord m c)) (flushed_eq m c) cover

/-- Every weakly fair execution ends with the result array at `G` and the arguments unchanged. -/
theorem run : θ_run defs (onTc (τ := τ) (main (F := Ideal))) ⟨m, fun _ => 0, ρ⟩ fun r => ∀ c : Dev nD,
      r.2.mem ((c : Thread nD τ).loc main_v24) = G (pts m c) (ptWord m c) (keyWord m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Result

end
-- ==== Proof.ScatterRead.lean ====
/-
  The host's accumulating scatter over the extended reals, read at one element, for the two layouts in which a
  vector of row numbers sends each row of the updates to a row of the operand: an operand that is a vector (each
  update a single number) and an operand that is a matrix (each update a row of `C` numbers). Element `v` (or
  `(v, k)`) of the result is the operand's element plus the sum of the updates of exactly the rows `n` whose row
  number, read as a signed integer, is `v`; rows sent outside the operand contribute nowhere.
-/
import Idealize.ShloMosaic.PureOps.Ideal
import Idealize.ShloMosaic.Lib.ValueIdx

noncomputable section

open scoped BigOperators

namespace Cert.ScatterRead

open Idealize.ShloMosaic Idealize.ShloMosaic.ValueIdx

/-- An update lands on operand element `i` exactly when, on every operand axis, the signed start plus the window
    coordinate is `i`'s coordinate: being inside the operand is then automatic, `i` being an index of it. -/
private theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    by_cases hh : ∀ a, 0 ≤ d.start j idx a + d.window j a ∧ d.start j idx a + d.window j a < s.size a
    · rw [dif_pos hh] at h
      have h1 := congrArg Fin.val (congrFun (Option.some.inj h) a)
      have h3 := (hh a).1
      simp only at h1
      omega
    · rw [dif_neg hh] at h
      exact absurd h (by simp)
  · intro h
    have hh : ∀ a, 0 ≤ d.start j idx a + d.window j a ∧ d.start j idx a + d.window j a < s.size a := by
      intro a
      have h1 := h a
      have h2 := (i a).isLt
      omega
    rw [dif_pos hh]
    congr 1
    funext a
    refine Fin.ext ?_
    have h1 := h a
    show (d.start j idx a + d.window j a).toNat = (i a).val
    omega

/-- A rank-1 index set is its one coordinate's range … -/
private def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Vector operand: the one operand axis is inserted (window coordinate `0`) and named by the map (start: row `n`'s
    row number, signed), so update `n` lands on element `v` exactly when its row number is `v`. -/
private theorem vec_lands {K R w : Nat} (wf : ScatterDims.WF ⟨1, ![K]⟩ ⟨2, ![R, 1]⟩ ⟨1, ![R]⟩ [] [0] [0] 1)
    (idx : IVec ⟨2, ![R, 1]⟩ w) (n : Fin R) (v : Fin K) :
    (ScatterDims.mk [] [0] [0] 1 wf : ScatterDims ⟨1, ![K]⟩ ⟨2, ![R, 1]⟩ ⟨1, ![R]⟩).resultIdx? (ix1 n) idx = some (ix1 v)
      ↔ (idx (ix2 n (0 : Fin 1))).toInt = (v.val : Int) := by
  rw [resultIdx?_eq_some_iff]
  have hst : (ScatterDims.mk [] [0] [0] 1 wf : ScatterDims ⟨1, ![K]⟩ ⟨2, ![R, 1]⟩ ⟨1, ![R]⟩).start (ix1 n) idx 0
      = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hw : (ScatterDims.mk [] [0] [0] 1 wf : ScatterDims ⟨1, ![K]⟩ ⟨2, ![R, 1]⟩ ⟨1, ![R]⟩).window (ix1 n) 0 = 0 := by
    unfold ScatterDims.window
    rw [dif_neg (fun h => by
      have h2 := (List.mem_filter.1 h).2
      exact absurd (List.mem_singleton.mpr rfl) (of_decide_eq_true h2))]
  constructor
  · intro h
    have h0 := h 0
    rw [hst, hw] at h0
    simp only [Nat.cast_zero, add_zero] at h0
    exact h0
  · intro h a
    obtain rfl : a = 0 := Subsingleton.elim _ _
    rw [hst, hw]
    simp only [Nat.cast_zero, add_zero]
    exact h

/-- Matrix operand: axis 0 is as in the vector case; axis 1 is kept and not named by the map, so its start is `0`
    and its window coordinate is the update's column. Update `(n, k')` lands on `(v, k)` exactly when row `n`'s row
    number is `v` and `k' = k`. -/
private theorem rows_lands {K R C w : Nat} (wf : ScatterDims.WF ⟨2, ![K, C]⟩ ⟨2, ![R, 1]⟩ ⟨2, ![R, C]⟩ [1] [0] [0] 1)
    (idx : IVec ⟨2, ![R, 1]⟩ w) (n : Fin R) (k' : Fin C) (v : Fin K) (k : Fin C) :
    (ScatterDims.mk [1] [0] [0] 1 wf : ScatterDims ⟨2, ![K, C]⟩ ⟨2, ![R, 1]⟩ ⟨2, ![R, C]⟩).resultIdx? (ix2 n k') idx
        = some (ix2 v k)
      ↔ (idx (ix2 n (0 : Fin 1))).toInt = (v.val : Int) ∧ k' = k := by
  rw [resultIdx?_eq_some_iff]
  have hst0 : (ScatterDims.mk [1] [0] [0] 1 wf : ScatterDims ⟨2, ![K, C]⟩ ⟨2, ![R, 1]⟩ ⟨2, ![R, C]⟩).start (ix2 n k') idx 0
      = (idx (ix2 n (0 : Fin 1))).toInt := by
    unfold ScatterDims.start
    rw [dif_pos (List.mem_singleton.mpr rfl)]
    congr 2
    funext b
    refine Fin.ext ?_
    match b with
    | ⟨0, _⟩ => rfl
    | ⟨1, _⟩ => rfl
  have hst1 : (ScatterDims.mk [1] [0] [0] 1 wf : ScatterDims ⟨2, ![K, C]⟩ ⟨2, ![R, 1]⟩ ⟨2, ![R, C]⟩).start (ix2 n k') idx 1
      = 0 := by
    unfold ScatterDims.start
    rw [dif_neg (fun h => Nat.one_ne_zero (congrArg Fin.val (List.mem_singleton.1 h)))]
  have hw0 : (ScatterDims.mk [1] [0] [0] 1 wf : ScatterDims ⟨2, ![K, C]⟩ ⟨2, ![R, 1]⟩ ⟨2, ![R, C]⟩).window (ix2 n k') 0
      = 0 := by
    unfold ScatterDims.window
    rw [dif_neg (fun h => by
      have h2 := (List.mem_filter.1 h).2
      exact absurd (List.mem_singleton.mpr rfl) (of_decide_eq_true h2))]
  have hw1 : (ScatterDims.mk [1] [0] [0] 1 wf : ScatterDims ⟨2, ![K, C]⟩ ⟨2, ![R, 1]⟩ ⟨2, ![R, C]⟩).window (ix2 n k') 1
      = k'.val := by
    unfold ScatterDims.window
    have hk1 : (1 : Fin 2)
        ∈ (ScatterDims.mk [1] [0] [0] 1 wf : ScatterDims ⟨2, ![K, C]⟩ ⟨2, ![R, 1]⟩ ⟨2, ![R, C]⟩).sKept := by
      refine List.mem_filter.2 ⟨List.mem_finRange _, ?_⟩
      refine decide_eq_true (fun h => ?_)
      exact Nat.one_ne_zero (congrArg Fin.val (List.mem_singleton.1 h))
    rw [dif_pos hk1]
    rfl
  constructor
  · intro h
    have h0 := h 0
    have h1 := h 1
    rw [hst0, hw0] at h0
    rw [hst1, hw1] at h1
    simp only [Nat.cast_zero, add_zero] at h0
    refine ⟨h0, Fin.ext ?_⟩
    have h1' : (0 : Int) + (k'.val : Int) = (k.val : Int) := h1
    omega
  · rintro ⟨h, rfl⟩ a
    match a with
    | ⟨0, _⟩ =>
      show (ScatterDims.mk [1] [0] [0] 1 wf : ScatterDims ⟨2, ![K, C]⟩ ⟨2, ![R, 1]⟩ ⟨2, ![R, C]⟩).start (ix2 n k') idx 0
        + ((ScatterDims.mk [1] [0] [0] 1 wf : ScatterDims ⟨2, ![K, C]⟩ ⟨2, ![R, 1]⟩ ⟨2, ![R, C]⟩).window (ix2 n k') 0 : Int)
        = (v.val : Int)
      rw [hst0, hw0]
      simp only [Nat.cast_zero, add_zero]
      exact h
    | ⟨1, _⟩ =>
      show (ScatterDims.mk [1] [0] [0] 1 wf : ScatterDims ⟨2, ![K, C]⟩ ⟨2, ![R, 1]⟩ ⟨2, ![R, C]⟩).start (ix2 n k') idx 1
        + ((ScatterDims.mk [1] [0] [0] 1 wf : ScatterDims ⟨2, ![K, C]⟩ ⟨2, ![R, 1]⟩ ⟨2, ![R, C]⟩).window (ix2 n k') 1 : Int)
        = (k'.val : Int)
      rw [hst1, hw1]
      exact zero_add _

/-- Row numbers `idx : [R, 1]` scatter the numbers `upd : [R]` into the vector `x : [K]`. -/
theorem scatterAdd_vec_apply {K R w : Nat}
    (d : ScatterDims ⟨1, ![K]⟩ ⟨2, ![R, 1]⟩ ⟨1, ![R]⟩)
    (hu : d.updateWindowDims = []) (hi : d.insertedWindowDims = [0]) (hs : d.scatterDimsToOperandDims = [0])
    (hv : d.indexVectorDim = 1)
    (x : (⟨1, ![K]⟩ : Shape).Idx → EReal) (idx : IVec ⟨2, ![R, 1]⟩ w) (upd : (⟨1, ![R]⟩ : Shape).Idx → EReal)
    (v : Fin K) :
    Ideal.hostScatterAdd d x idx upd (ix1 v)
      = x (ix1 v) + ∑ n : Fin R, if (idx (ix2 n (0 : Fin 1))).toInt = (v.val : Int) then upd (ix1 n) else 0 := by
  obtain ⟨uw, iw, sd, iv, wf⟩ := d
  dsimp only at hu hi hs hv
  subst hu hi hs hv
  unfold Ideal.hostScatterAdd
  congr 1
  rw [Finset.sum_filter, sum_idx1]
  refine Finset.sum_congr rfl (fun n _ => ?_)
  by_cases h : (idx (ix2 n (0 : Fin 1))).toInt = (v.val : Int)
  · rw [if_pos ((vec_lands wf idx n v).2 h), if_pos h]
  · rw [if_neg (fun h' => h ((vec_lands wf idx n v).1 h')), if_neg h]

/-- Row numbers `idx : [R, 1]` scatter the rows of `upd : [R, C]` into the rows of `x : [K, C]`. -/
theorem scatterAdd_rows_apply {K R C w : Nat}
    (d : ScatterDims ⟨2, ![K, C]⟩ ⟨2, ![R, 1]⟩ ⟨2, ![R, C]⟩)
    (hu : d.updateWindowDims = [1]) (hi : d.insertedWindowDims = [0]) (hs : d.scatterDimsToOperandDims = [0])
    (hv : d.indexVectorDim = 1)
    (x : (⟨2, ![K, C]⟩ : Shape).Idx → EReal) (idx : IVec ⟨2, ![R, 1]⟩ w) (upd : (⟨2, ![R, C]⟩ : Shape).Idx → EReal)
    (v : Fin K) (k : Fin C) :
    Ideal.hostScatterAdd d x idx upd (ix2 v k)
      = x (ix2 v k) + ∑ n : Fin R, if (idx (ix2 n (0 : Fin 1))).toInt = (v.val : Int) then upd (ix2 n k) else 0 := by
  obtain ⟨uw, iw, sd, iv, wf⟩ := d
  dsimp only at hu hi hs hv
  subst hu hi hs hv
  unfold Ideal.hostScatterAdd
  congr 1
  rw [Finset.sum_filter, sum_idx2]
  refine Finset.sum_congr rfl (fun n _ => ?_)
  by_cases h : (idx (ix2 n (0 : Fin 1))).toInt = (v.val : Int)
  · rw [if_pos h, Finset.sum_eq_single k]
    · rw [if_pos ((rows_lands wf idx n k v k).2 ⟨h, rfl⟩)]
    · intro k' _ hk
      rw [if_neg (fun h' => hk ((rows_lands wf idx n k' v k).1 h').2)]
    · intro hk
      exact absurd (Finset.mem_univ k) hk
  · rw [if_neg h]
    exact Finset.sum_eq_zero (fun k' _ => if_neg (fun h' => h ((rows_lands wf idx n k' v k).1 h').1))

end Cert.ScatterRead

end
-- ==== Proof.RefSums.lean ====
/-
  The reference's three scattered sums read at one voxel. All 262144 points of both batches are scattered by
  a segment word, the point's voxel word offset by 8000 times its batch number; a voxel word is below 8000, so
  segment `8000 b + v` receives exactly the points of batch `b` whose voxel word is `v`. Read at batch `b` and
  voxel `v`, the count, the coordinate sums and the product sums are therefore the voxel sums of the thirteen
  moments over batch `b` alone.
-/
import proofs.«413474_j66005057405413_2_alg».proof.Proof.RefRead
import proofs.«413474_j66005057405413_2_alg».proof.Proof.Moments
import proofs.«413474_j66005057405413_2_alg».proof.Proof.ScatterRead
import proofs.«413474_j66005057405413_2_alg».proof.Proof.Words
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.ReferenceIdeal.SegSums

open Cert.ReferenceIdeal Cert.ReferenceIdeal.Gen Cert.ReferenceIdeal.ReadP Idealize.ShloMosaic Idealize.ShloMosaic.ValueIdx
open Cert.Moments

variable (X : (⟨S2x131072x3, .f32⟩ : BufTy).Contents (Elt Ideal))

/-- The flattened number of point `m` of batch `b'`: the two batches follow one another, 131072 points each. -/
private abbrev flatPt (b' : Fin 2) (m : Fin 131072) : Fin 262144 :=
  ⟨131072 * b'.val + m.val, by have h1 := b'.isLt; have h2 := m.isLt; omega⟩

/-- The segment of voxel `v` of batch `b`: the two batches' voxels follow one another, 8000 each. -/
private abbrev seg (b : Fin 2) (v : Fin 8000) : Fin 16000 :=
  ⟨8000 * b.val + v.val, by have h1 := b.isLt; have h2 := v.isLt; omega⟩

/-- A flattened point number is a batch number and a point number within the batch, by division with remainder. -/
private def flatEquiv : Fin 2 × Fin 131072 ≃ Fin 262144 where
  toFun p := flatPt p.1 p.2
  invFun n := (⟨n.val / 131072, by have h := n.isLt; omega⟩, ⟨n.val % 131072, by omega⟩)
  left_inv p := by
    have h1 := p.1.isLt
    have h2 := p.2.isLt
    refine Prod.ext (Fin.ext ?_) (Fin.ext ?_)
    · show (131072 * p.1.val + p.2.val) / 131072 = p.1.val
      omega
    · show (131072 * p.1.val + p.2.val) % 131072 = p.2.val
      omega
  right_inv n := by
    refine Fin.ext ?_
    show 131072 * (n.val / 131072) + n.val % 131072 = n.val
    omega

/-- A sum over all flattened points is the sum over the batches of the sums over each batch's points. -/
private theorem sum_flat {M : Type*} [AddCommMonoid M] (f : Fin 262144 → M) :
    ∑ n, f n = ∑ b' : Fin 2, ∑ m : Fin 131072, f (flatPt b' m) := by
  rw [← Equiv.sum_comp flatEquiv f, Fintype.sum_prod_type]
  rfl

/-- The segment word of a flattened point: the voxel word of the point, offset by `8000` times its batch number. -/
private theorem seg_word (b' : Fin 2) (m : Fin 131072) :
    val_main_v27 (F := Ideal) X (ix1 (flatPt b' m))
      = IntOp.addi (val_main_v20 (F := Ideal) X (ix2 b' m)) (IntOp.muli (BitVec.ofNat 32 b'.val) 8000#32) := by
  have hi : idx_main_v27 (ix1 (flatPt b' m)) = ix2 b' m := by
    funext a
    refine Fin.ext ?_
    have h1 := b'.isLt
    have h2 := m.isLt
    match a with
    | ⟨0, _⟩ => show (131072 * b'.val + m.val) / 131072 = b'.val; omega
    | ⟨1, _⟩ => show (131072 * b'.val + m.val) % 131072 = m.val; omega
  rw [val_main_v27_apply, hi, val_main_v26_apply, val_main_v25_apply, val_main_v24_apply, val_main_v22_apply,
    val_main_v21_apply, val_main_v23_apply, val_main_c_4_apply]

/-- A flattened point of batch `b'` is sent to segment `8000 b + v` exactly when `b' = b` and its voxel word is
    `v`: a voxel word is below `8000`, so the offset `8000 b'` tells the batches apart. -/
private theorem seg_cond (hflat : ∀ i, (val_main_v20 (F := Ideal) X i).toNat < 8000) (b b' : Fin 2) (m : Fin 131072)
    (v : Fin 8000) :
    (val_main_v27 (F := Ideal) X (ix1 (flatPt b' m))).toInt = ((seg b v).val : Int)
      ↔ b' = b ∧ val_main_v20 (F := Ideal) X (ix2 b' m) = BitVec.ofNat 32 v.val := by
  rw [seg_word, Cert.Words.offset_toInt _ (hflat _) b'.val b'.isLt]
  have hf := hflat (ix2 b' m)
  have hb := b.isLt
  have hb' := b'.isLt
  have hv := v.isLt
  have hvn : (BitVec.ofNat 32 v.val).toNat = v.val := by
    rw [BitVec.toNat_ofNat]
    exact Nat.mod_eq_of_lt (by omega)
  constructor
  · intro h
    have h2 : (((val_main_v20 (F := Ideal) X (ix2 b' m)).toNat + 8000 * b'.val : Nat) : Int)
        = ((8000 * b.val + v.val : Nat) : Int) := h
    exact ⟨Fin.ext (by omega), BitVec.eq_of_toNat_eq (by rw [hvn]; omega)⟩
  · rintro ⟨rfl, h⟩
    rw [h, hvn]
    show ((v.val + 8000 * b'.val : Nat) : Int) = ((8000 * b'.val + v.val : Nat) : Int)
    rw [Nat.add_comm]

/-- Summing over all flattened points the terms sent to segment `8000 b + v` is summing over the points of batch
    `b` whose voxel word is `v`: every term of the other batch is zero. -/
private theorem seg_sum (hflat : ∀ i, (val_main_v20 (F := Ideal) X i).toNat < 8000) (b : Fin 2) (v : Fin 8000)
    (g : Fin 262144 → EReal) :
    (∑ n : Fin 262144, if (val_main_v27 (F := Ideal) X (ix1 n)).toInt = ((seg b v).val : Int) then g n else 0)
      = ∑ m : Fin 131072,
          if val_main_v20 (F := Ideal) X (ix2 b m) = BitVec.ofNat 32 v.val then g (flatPt b m) else 0 := by
  rw [sum_flat]
  refine (Finset.sum_eq_single b ?_ ?_).trans ?_
  · intro b' _ hb'
    exact Finset.sum_eq_zero (fun m _ => if_neg (fun h' => hb' ((seg_cond X hflat b b' m v).1 h').1))
  · intro h
    exact absurd (Finset.mem_univ b) h
  · refine Finset.sum_congr rfl (fun m _ => ?_)
    by_cases h : val_main_v20 (F := Ideal) X (ix2 b m) = BitVec.ofNat 32 v.val
    · rw [if_pos h, if_pos ((seg_cond X hflat b b m v).2 ⟨rfl, h⟩)]
    · rw [if_neg h, if_neg (fun h' => h ((seg_cond X hflat b b m v).1 h').2)]

/-- The three scatters read the segment words as a one-column array: row `n` holds the segment word of point `n`. -/
private theorem col31 (n : Fin 262144) :
    val_main_v31 (F := Ideal) X (ix2 n (0 : Fin 1)) = val_main_v27 (F := Ideal) X (ix1 n) := by
  have hi : idx_main_v31 (ix2 n (0 : Fin 1)) = ix1 n := by
    funext a
    match a with
    | ⟨0, _⟩ => rfl
  rw [val_main_v31_apply, hi]
private theorem col35 (n : Fin 262144) :
    val_main_v35 (F := Ideal) X (ix2 n (0 : Fin 1)) = val_main_v27 (F := Ideal) X (ix1 n) := by
  have hi : idx_main_v35 (ix2 n (0 : Fin 1)) = ix1 n := by
    funext a
    match a with
    | ⟨0, _⟩ => rfl
  rw [val_main_v35_apply, hi]
private theorem col45 (n : Fin 262144) :
    val_main_v45 (F := Ideal) X (ix2 n (0 : Fin 1)) = val_main_v27 (F := Ideal) X (ix1 n) := by
  have hi : idx_main_v45 (ix2 n (0 : Fin 1)) = ix1 n := by
    funext a
    match a with
    | ⟨0, _⟩ => rfl
  rw [val_main_v45_apply, hi]

/-- The points as a two-axis array: row `131072 b' + m`, column `d` is coordinate `d` of point `m` of batch `b'`. -/
private theorem pt_apply (b' : Fin 2) (m : Fin 131072) (d : Fin 3) :
    val_main_v28 (F := Ideal) X (ix2 (flatPt b' m) d) = X (ix3 b' m d) := by
  have hi : idx_main_v28 (ix2 (flatPt b' m) d) = ix3 b' m d := by
    funext a
    refine Fin.ext ?_
    have h1 := b'.isLt
    have h2 := m.isLt
    have h3 := d.isLt
    match a with
    | ⟨0, _⟩ => show ((131072 * b'.val + m.val) * 3 + d.val) / 393216 = b'.val; omega
    | ⟨1, _⟩ => show ((131072 * b'.val + m.val) * 3 + d.val) / 3 % 131072 = m.val; omega
    | ⟨2, _⟩ => show ((131072 * b'.val + m.val) * 3 + d.val) % 3 = d.val; omega
  rw [val_main_v28_apply, hi]

/-- The nine products of a point: column `e` of row `131072 b' + m` is coordinate `e / 3` times coordinate `e % 3`. -/
private theorem prod_apply (b' : Fin 2) (m : Fin 131072) (e : Fin 9) :
    val_main_v43 (F := Ideal) X (ix2 (flatPt b' m) e)
      = X (ix3 b' m (⟨e.val / 3, by have h := e.isLt; omega⟩ : Fin 3))
        * X (ix3 b' m (⟨e.val % 3, by omega⟩ : Fin 3)) := by
  have hl : idx_main_v38 (idx_main_v40 (idx_main_v43 (ix2 (flatPt b' m) e)))
      = ix2 (flatPt b' m) (⟨e.val / 3, by have h := e.isLt; omega⟩ : Fin 3) := by
    funext a
    refine Fin.ext ?_
    have h3 := e.isLt
    match a with
    | ⟨0, _⟩ => show ((131072 * b'.val + m.val) * 9 + e.val) / 9 = 131072 * b'.val + m.val; omega
    | ⟨1, _⟩ => show ((131072 * b'.val + m.val) * 9 + e.val) / 3 % 3 = e.val / 3; omega
  have hr : idx_main_v39 (idx_main_v41 (idx_main_v43 (ix2 (flatPt b' m) e)))
      = ix2 (flatPt b' m) (⟨e.val % 3, by omega⟩ : Fin 3) := by
    funext a
    refine Fin.ext ?_
    have h3 := e.isLt
    match a with
    | ⟨0, _⟩ => show ((131072 * b'.val + m.val) * 9 + e.val) / 9 = 131072 * b'.val + m.val; omega
    | ⟨1, _⟩ => show ((131072 * b'.val + m.val) * 9 + e.val) % 3 = e.val % 3; omega
  rw [val_main_v43_apply, val_main_v42_apply, val_main_v40_apply, val_main_v38_apply, hl, val_main_v41_apply,
    val_main_v39_apply, hr, pt_apply, pt_apply]
  rfl

/-- The count of voxel `v` of batch `b`: moment 0 summed over the voxel. -/
theorem count_apply (hflat : ∀ i, (val_main_v20 (F := Ideal) X i).toNat < 8000) (b : Fin 2) (v : Fin 8000) :
    val_main_v33 (F := Ideal) X (ix3 b v (0 : Fin 1))
      = voxelSum X (val_main_v20 (F := Ideal) X) b (BitVec.ofNat 32 v.val) 0 := by
  have hi : idx_main_v33 (ix3 b v (0 : Fin 1)) = ix1 (seg b v) := by
    funext a
    refine Fin.ext ?_
    match a with
    | ⟨0, _⟩ => show (b.val * 8000 + v.val) * 1 + 0 = 8000 * b.val + v.val; omega
  rw [val_main_v33_apply, hi]
  rw [val_main_v32, Host.scatterAdd, Ideal.hostScatterAdd_def,
    Cert.ScatterRead.scatterAdd_vec_apply scatter_S16000_S262144x1_S262144_n_0_0_1 rfl rfl rfl rfl,
    val_main_v30_apply, val_main_cst_6_apply, Ideal.ofBits_def, Ideal.ofBits_zero_f32, zero_add]
  simp only [col31 X]
  rw [seg_sum X hflat b v (fun n => val_main_v29 (F := Ideal) (ix1 n))]
  unfold voxelSum
  refine Finset.sum_congr rfl (fun m _ => ?_)
  by_cases h : val_main_v20 (F := Ideal) X (ix2 b m) = BitVec.ofNat 32 v.val
  · rw [if_pos h, if_pos h, val_main_v29_apply, val_main_cst_5_apply, Ideal.ofBits_def]
    rfl
  · rw [if_neg h, if_neg h]

/-- The sum of coordinate `d` over voxel `v` of batch `b`: moment `1 + d`. -/
theorem coordSum_apply (hflat : ∀ i, (val_main_v20 (F := Ideal) X i).toNat < 8000) (b : Fin 2) (v : Fin 8000) (d : Fin 3) :
    val_main_v37 (F := Ideal) X (ix3 b v d)
      = voxelSum X (val_main_v20 (F := Ideal) X) b (BitVec.ofNat 32 v.val) ⟨1 + d.val, by omega⟩ := by
  have hi : idx_main_v37 (ix3 b v d) = ix2 (seg b v) d := by
    funext a
    refine Fin.ext ?_
    have h1 := b.isLt
    have h2 := v.isLt
    have h3 := d.isLt
    match a with
    | ⟨0, _⟩ => show ((b.val * 8000 + v.val) * 3 + d.val) / 3 = 8000 * b.val + v.val; omega
    | ⟨1, _⟩ => show ((b.val * 8000 + v.val) * 3 + d.val) % 3 = d.val; omega
  rw [val_main_v37_apply, hi]
  rw [val_main_v36, Host.scatterAdd, Ideal.hostScatterAdd_def,
    Cert.ScatterRead.scatterAdd_rows_apply scatter_S16000x3_S262144x1_S262144x3_1_0_0_1 rfl rfl rfl rfl,
    val_main_v34_apply, val_main_cst_7_apply, Ideal.ofBits_def, Ideal.ofBits_zero_f32, zero_add]
  simp only [col35 X]
  rw [seg_sum X hflat b v (fun n => val_main_v28 (F := Ideal) X (ix2 n d))]
  unfold voxelSum
  refine Finset.sum_congr rfl (fun m _ => ?_)
  by_cases h : val_main_v20 (F := Ideal) X (ix2 b m) = BitVec.ofNat 32 v.val
  · rw [if_pos h, if_pos h, pt_apply]
    fin_cases d <;> rfl
  · rw [if_neg h, if_neg h]

/-- The sum of the product of coordinates `e / 3` and `e % 3` over voxel `v` of batch `b`: moment `4 + e`. -/
theorem prodSum_apply (hflat : ∀ i, (val_main_v20 (F := Ideal) X i).toNat < 8000) (b : Fin 2) (v : Fin 8000) (e : Fin 9) :
    val_main_v47 (F := Ideal) X (ix3 b v e)
      = voxelSum X (val_main_v20 (F := Ideal) X) b (BitVec.ofNat 32 v.val) ⟨4 + e.val, by omega⟩ := by
  have hi : idx_main_v47 (ix3 b v e) = ix2 (seg b v) e := by
    funext a
    refine Fin.ext ?_
    have h1 := b.isLt
    have h2 := v.isLt
    have h3 := e.isLt
    match a with
    | ⟨0, _⟩ => show ((b.val * 8000 + v.val) * 9 + e.val) / 9 = 8000 * b.val + v.val; omega
    | ⟨1, _⟩ => show ((b.val * 8000 + v.val) * 9 + e.val) % 9 = e.val; omega
  rw [val_main_v47_apply, hi]
  rw [val_main_v46, Host.scatterAdd, Ideal.hostScatterAdd_def,
    Cert.ScatterRead.scatterAdd_rows_apply scatter_S16000x9_S262144x1_S262144x9_1_0_0_1 rfl rfl rfl rfl,
    val_main_v44_apply, val_main_cst_8_apply, Ideal.ofBits_def, Ideal.ofBits_zero_f32, zero_add]
  simp only [col45 X]
  rw [seg_sum X hflat b v (fun n => val_main_v43 (F := Ideal) X (ix2 n e))]
  unfold voxelSum
  refine Finset.sum_congr rfl (fun m _ => ?_)
  by_cases h : val_main_v20 (F := Ideal) X (ix2 b m) = BitVec.ofNat 32 v.val
  · rw [if_pos h, if_pos h, prod_apply]
    fin_cases e <;> rfl
  · rw [if_neg h, if_neg h]

end Cert.ReferenceIdeal.SegSums

end
-- ==== Proof.GatherRead.lean ====
/-
  The host's gather read at one element, for a table of rows indexed per batch: batch `b` of the result reads
  batch `b` of the operand at the row its start index names, the start index read as a signed integer and clamped
  into the operand's rows. Two layouts: the operand a matrix `[B, N]` (one number per read) and the operand a
  stack of matrices `[B, V, C]` (a whole row of `C` numbers per read).
-/
import Idealize.ShloMosaic.PureOps.ShapeOps
import Idealize.ShloMosaic.Lib.ValueIdx

noncomputable section

namespace Cert.GatherRead

open Idealize.ShloMosaic Idealize.ShloMosaic.ValueIdx

/-! ## The operand a matrix `[B, N]`

The operand index of result element `(b, q)` is, per operand axis, the sum of three numbers: the clamped start
index (non-zero only on an axis the start index map names), the batching coordinate (non-zero only on a batching
axis) and the offset coordinate (non-zero only on an axis neither collapsed nor batching). On axis 0, a batching
axis, only the batching coordinate survives, and it is the result's coordinate `b`; on axis 1, collapsed and named
by the start index map, only the start survives, and it is the start index `idx[b, q, 0]` clamped into `[0, N − 1]`
because a collapsed axis carries slices of size one. -/

/-- The dimension numbers with their lists written out, the slice sizes and the conditions left as they come. -/
private abbrev takeDims2 (B N M : Nat) (ss : Fin 2 → Nat)
    (wf : GatherDims.WF ⟨2, ![B, N]⟩ ⟨3, ![B, M, 1]⟩ ⟨2, ![B, M]⟩ [] [1] [0] [1] [0] 2 ss) :
    GatherDims ⟨2, ![B, N]⟩ ⟨3, ![B, M, 1]⟩ ⟨2, ![B, M]⟩ where
  offsetDims := []
  collapsedSliceDims := [1]
  operandBatchingDims := [0]
  startIndicesBatchingDims := [0]
  startIndexMap := [1]
  indexVectorDim := 2
  sliceSizes := ss
  wf := wf

/-- `result[b, q] = x[b, clamp (idx[b, q, 0])]`. -/
theorem gather_batchTake_apply {α : Type} {B N M w : Nat} (hN : 0 < N)
    (d : GatherDims ⟨2, ![B, N]⟩ ⟨3, ![B, M, 1]⟩ ⟨2, ![B, M]⟩)
    (ho : d.offsetDims = []) (hc : d.collapsedSliceDims = [1]) (hob : d.operandBatchingDims = [0])
    (hsb : d.startIndicesBatchingDims = [0]) (hm : d.startIndexMap = [1]) (hv : d.indexVectorDim = 2)
    (x : (⟨2, ![B, N]⟩ : Shape).Idx → α) (idx : IVec ⟨3, ![B, M, 1]⟩ w) (b : Fin B) (q : Fin M) :
    Host.gather d x idx (ix2 b q)
      = x (ix2 b ⟨min (idx (ix3 b q (0 : Fin 1))).toInt.toNat (N - 1), by omega⟩) := by
  obtain ⟨od, cs, ob, sb, sm, iv, ss, wf⟩ := d
  simp only at ho hc hob hsb hm hv
  subst ho hc hob hsb hm hv
  -- the collapsed axis carries slices of size one, so the clamp's upper end is `N - 1`
  have hss : ss 1 = 1 := wf.2.2.2.2.2.2.2.2.2.2.2.1 1 (List.mem_singleton.mpr rfl)
  change Host.gather (takeDims2 B N M ss wf) x idx (ix2 b q) = _
  unfold Host.gather
  congr 1
  funext a
  refine Fin.ext ?_
  match a with
  | ⟨0, _⟩ =>
    -- axis 0, batching: start and offset coordinate vanish, the batching coordinate is `b`
    show (takeDims2 B N M ss wf).start (ix2 b q) idx 0 + (takeDims2 B N M ss wf).batchCoord (ix2 b q) 0
      + (takeDims2 B N M ss wf).offCoord (ix2 b q) 0 = b.val
    have h0 : (0 : Fin 2) ∈ (takeDims2 B N M ss wf).operandBatchingDims := List.mem_singleton.mpr rfl
    rw [GatherDims.start_batching _ _ _ _ h0,
      GatherDims.offCoord_eq_zero _ _ _ (fun h => ((GatherDims.mem_sKept _ _).mp h).2 h0)]
    simp only [Nat.zero_add, Nat.add_zero]
    unfold GatherDims.batchCoord
    rw [dif_pos h0]
    -- the start indices' batching axis 0 is the first of their kept axes, read by the result's first batch axis
    rfl
  | ⟨1, _⟩ =>
    -- axis 1, collapsed and named by the start index map: only the clamped start index survives
    show (takeDims2 B N M ss wf).start (ix2 b q) idx 1 + (takeDims2 B N M ss wf).batchCoord (ix2 b q) 1
      + (takeDims2 B N M ss wf).offCoord (ix2 b q) 1 = min (idx (ix3 b q (0 : Fin 1))).toInt.toNat (N - 1)
    have ne10 : (1 : Fin 2) ≠ 0 := by decide
    have h1b : (1 : Fin 2) ∉ (takeDims2 B N M ss wf).operandBatchingDims :=
      fun h => ne10 (List.mem_singleton.mp h)
    have h1c : (1 : Fin 2) ∈ (takeDims2 B N M ss wf).collapsedSliceDims := List.mem_singleton.mpr rfl
    have h1m : (1 : Fin 2) ∈ (takeDims2 B N M ss wf).startIndexMap := List.mem_singleton.mpr rfl
    rw [GatherDims.batchCoord_eq_zero _ _ _ h1b,
      GatherDims.offCoord_eq_zero _ _ _ (fun h => ((GatherDims.mem_sKept _ _).mp h).1 h1c)]
    simp only [Nat.add_zero]
    unfold GatherDims.start
    rw [dif_pos h1m]
    -- the start index is read at the result's batch coordinates, component 0 on the index vector's axis
    have hsi : (takeDims2 B N M ss wf).siIdx (ix2 b q)
        ⟨List.idxOf (1 : Fin 2) (takeDims2 B N M ss wf).startIndexMap, List.idxOf_lt_length_iff.2 h1m⟩
        = ix3 b q (0 : Fin 1) := by
      funext c; refine Fin.ext ?_
      match c with
      | ⟨0, _⟩ => rfl
      | ⟨1, _⟩ => rfl
      | ⟨2, _⟩ => rfl
    rw [hsi]
    show min _ (N - ss 1) = min _ (N - 1)
    rw [hss]

/-! ## The operand a stack of matrices `[B, V, C]`

Axes 0 and 1 are read as before (batching; collapsed and named by the start index map, clamped into `[0, V − 1]`).
Axis 2 is neither collapsed nor batching nor named by the start index map: its start and batching coordinate
vanish and its offset coordinate is the result's coordinate `k` on the one offset axis, so the whole row is carried. -/

/-- The dimension numbers with their lists written out, the slice sizes and the conditions left as they come. -/
private abbrev takeDims3 (B V C M : Nat) (ss : Fin 3 → Nat)
    (wf : GatherDims.WF ⟨3, ![B, V, C]⟩ ⟨3, ![B, M, 1]⟩ ⟨3, ![B, M, C]⟩ [2] [1] [0] [1] [0] 2 ss) :
    GatherDims ⟨3, ![B, V, C]⟩ ⟨3, ![B, M, 1]⟩ ⟨3, ![B, M, C]⟩ where
  offsetDims := [2]
  collapsedSliceDims := [1]
  operandBatchingDims := [0]
  startIndicesBatchingDims := [0]
  startIndexMap := [1]
  indexVectorDim := 2
  sliceSizes := ss
  wf := wf

/-- `result[b, q, k] = x[b, clamp (idx[b, q, 0]), k]`. -/
theorem gather_batchTakeRow_apply {α : Type} {B V C M w : Nat} (hV : 0 < V)
    (d : GatherDims ⟨3, ![B, V, C]⟩ ⟨3, ![B, M, 1]⟩ ⟨3, ![B, M, C]⟩)
    (ho : d.offsetDims = [2]) (hc : d.collapsedSliceDims = [1]) (hob : d.operandBatchingDims = [0])
    (hsb : d.startIndicesBatchingDims = [0]) (hm : d.startIndexMap = [1]) (hv : d.indexVectorDim = 2)
    (x : (⟨3, ![B, V, C]⟩ : Shape).Idx → α) (idx : IVec ⟨3, ![B, M, 1]⟩ w) (b : Fin B) (q : Fin M) (k : Fin C) :
    Host.gather d x idx (ix3 b q k)
      = x (ix3 b ⟨min (idx (ix3 b q (0 : Fin 1))).toInt.toNat (V - 1), by omega⟩ k) := by
  obtain ⟨od, cs, ob, sb, sm, iv, ss, wf⟩ := d
  simp only at ho hc hob hsb hm hv
  subst ho hc hob hsb hm hv
  -- the collapsed axis carries slices of size one, so the clamp's upper end is `V - 1`
  have hss : ss 1 = 1 := wf.2.2.2.2.2.2.2.2.2.2.2.1 1 (List.mem_singleton.mpr rfl)
  change Host.gather (takeDims3 B V C M ss wf) x idx (ix3 b q k) = _
  unfold Host.gather
  congr 1
  funext a
  refine Fin.ext ?_
  match a with
  | ⟨0, _⟩ =>
    -- axis 0, batching: start and offset coordinate vanish, the batching coordinate is `b`
    show (takeDims3 B V C M ss wf).start (ix3 b q k) idx 0 + (takeDims3 B V C M ss wf).batchCoord (ix3 b q k) 0
      + (takeDims3 B V C M ss wf).offCoord (ix3 b q k) 0 = b.val
    have h0 : (0 : Fin 3) ∈ (takeDims3 B V C M ss wf).operandBatchingDims := List.mem_singleton.mpr rfl
    rw [GatherDims.start_batching _ _ _ _ h0,
      GatherDims.offCoord_eq_zero _ _ _ (fun h => ((GatherDims.mem_sKept _ _).mp h).2 h0)]
    simp only [Nat.zero_add, Nat.add_zero]
    unfold GatherDims.batchCoord
    rw [dif_pos h0]
    -- the result's batch axes are 0 and 1 (axis 2 is its offset axis); the first reads the start indices' axis 0
    rfl
  | ⟨1, _⟩ =>
    -- axis 1, collapsed and named by the start index map: only the clamped start index survives
    show (takeDims3 B V C M ss wf).start (ix3 b q k) idx 1 + (takeDims3 B V C M ss wf).batchCoord (ix3 b q k) 1
      + (takeDims3 B V C M ss wf).offCoord (ix3 b q k) 1 = min (idx (ix3 b q (0 : Fin 1))).toInt.toNat (V - 1)
    have ne10 : (1 : Fin 3) ≠ 0 := by decide
    have h1b : (1 : Fin 3) ∉ (takeDims3 B V C M ss wf).operandBatchingDims :=
      fun h => ne10 (List.mem_singleton.mp h)
    have h1c : (1 : Fin 3) ∈ (takeDims3 B V C M ss wf).collapsedSliceDims := List.mem_singleton.mpr rfl
    have h1m : (1 : Fin 3) ∈ (takeDims3 B V C M ss wf).startIndexMap := List.mem_singleton.mpr rfl
    rw [GatherDims.batchCoord_eq_zero _ _ _ h1b,
      GatherDims.offCoord_eq_zero _ _ _ (fun h => ((GatherDims.mem_sKept _ _).mp h).1 h1c)]
    simp only [Nat.add_zero]
    unfold GatherDims.start
    rw [dif_pos h1m]
    -- the start index is read at the result's batch coordinates, component 0 on the index vector's axis
    have hsi : (takeDims3 B V C M ss wf).siIdx (ix3 b q k)
        ⟨List.idxOf (1 : Fin 3) (takeDims3 B V C M ss wf).startIndexMap, List.idxOf_lt_length_iff.2 h1m⟩
        = ix3 b q (0 : Fin 1) := by
      funext c; refine Fin.ext ?_
      match c with
      | ⟨0, _⟩ => rfl
      | ⟨1, _⟩ => rfl
      | ⟨2, _⟩ => rfl
    rw [hsi]
    show min _ (V - ss 1) = min _ (V - 1)
    rw [hss]
  | ⟨2, _⟩ =>
    -- axis 2, the one kept axis: start and batching coordinate vanish, the offset coordinate is `k`
    show (takeDims3 B V C M ss wf).start (ix3 b q k) idx 2 + (takeDims3 B V C M ss wf).batchCoord (ix3 b q k) 2
      + (takeDims3 B V C M ss wf).offCoord (ix3 b q k) 2 = k.val
    have ne20 : (2 : Fin 3) ≠ 0 := by decide
    have ne21 : (2 : Fin 3) ≠ 1 := by decide
    have h2b : (2 : Fin 3) ∉ (takeDims3 B V C M ss wf).operandBatchingDims :=
      fun h => ne20 (List.mem_singleton.mp h)
    have h2c : (2 : Fin 3) ∉ (takeDims3 B V C M ss wf).collapsedSliceDims :=
      fun h => ne21 (List.mem_singleton.mp h)
    have h2m : (2 : Fin 3) ∉ (takeDims3 B V C M ss wf).startIndexMap :=
      fun h => ne21 (List.mem_singleton.mp h)
    have h2k : (2 : Fin 3) ∈ (takeDims3 B V C M ss wf).sKept := (GatherDims.mem_sKept _ _).mpr ⟨h2c, h2b⟩
    rw [GatherDims.batchCoord_eq_zero _ _ _ h2b]
    unfold GatherDims.start
    rw [dif_neg h2m]
    simp only [Nat.zero_add, Nat.add_zero]
    unfold GatherDims.offCoord
    rw [dif_pos h2k]
    -- axis 2 is the first (and only) kept operand axis, read by the result's first (and only) offset axis, 2
    rfl

end Cert.GatherRead

end
-- ==== Proof.MaskAll.lean ====
/-
  A reduction by `and` of one-bit words, started at one, over words that are all one, is one.
-/
import Idealize.ShloMosaic.PureOps.Reduce
import Idealize.ShloMosaic.Lib.ReduceAll

namespace Cert.MaskAll

open Idealize.ShloMosaic

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- Every operand word one and the initial word one: the reduction is one at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_ones x hx _

end Cert.MaskAll
-- ==== Proof.RefValue.lean ====
/-
  The reference's result as the function `G`. The table of statistics holds, at batch `b` and voxel `v`, the
  statistics of the voxel's thirteen sums; the sampled voxel word is a voxel number below 8000, so the guarded read of
  the table at it is a plain read of that voxel's row.
-/
import proofs.«413474_j66005057405413_2_alg».proof.Proof.RefSums
import proofs.«413474_j66005057405413_2_alg».proof.Proof.GatherRead
import proofs.«413474_j66005057405413_2_alg».proof.Proof.MaskAll

noncomputable section

open scoped BigOperators

namespace Cert.ReferenceIdeal.RefValue

open Cert.ReferenceIdeal Cert.ReferenceIdeal.Gen Cert.ReferenceIdeal.ReadP Idealize.ShloMosaic Idealize.ShloMosaic.ValueIdx
open Cert.Moments

variable (X : (⟨S2x131072x3, .f32⟩ : BufTy).Contents (Elt Ideal)) (I : (⟨S2x512, .i32⟩ : BufTy).Contents (Elt Ideal))

/-! ## The table of statistics

The table is the three means joined, along the last axis, with the nine covariances. Every entry divides by the same
number, the voxel's count raised to at least one; a mean is a coordinate sum over it, a covariance is a product sum
over it less the product of two means. -/

/-- The divisor of voxel `v` of batch `b`: the larger of the voxel's count and the unit. -/
private theorem divisor_apply (hflat : ∀ i, (val_main_v20 (F := Ideal) X i).toNat < 8000) (b : Fin 2) (v : Fin 8000) :
    val_main_v49 (F := Ideal) X (ix3 b v (0 : Fin 1))
      = divisor (voxelSum X (val_main_v20 (F := Ideal) X) b (BitVec.ofNat 32 v.val)) := by
  rw [val_main_v49_apply, SegSums.count_apply X hflat b v, val_main_v48_apply, val_main_cst_9_apply]
  rfl

/-- The mean of coordinate `d` over voxel `v` of batch `b`: the coordinate sum over the divisor, the divisor
    being the same along the last axis. -/
private theorem mean_apply (hflat : ∀ i, (val_main_v20 (F := Ideal) X i).toNat < 8000) (b : Fin 2) (v : Fin 8000)
    (d : Fin 3) :
    val_main_v51 (F := Ideal) X (ix3 b v d)
      = mean (voxelSum X (val_main_v20 (F := Ideal) X) b (BitVec.ofNat 32 v.val)) d := by
  have hidx : idx_main_v50 (ix3 b v d) = ix3 b v (0 : Fin 1) := by
    funext a
    match a with
    | ⟨0, _⟩ => rfl
    | ⟨1, _⟩ => rfl
    | ⟨2, _⟩ => rfl
  rw [val_main_v51_apply, SegSums.coordSum_apply X hflat b v d, val_main_v50_apply, hidx, divisor_apply X hflat b v]
  rfl

/-- Entry `e` of the nine products of means is the product of the means of coordinates `e / 3` and `e % 3`:
    the nine are a three by three array, the first mean constant along its rows' entries and the second along its
    columns' entries, flattened row by row. -/
private theorem meanProd_apply (hflat : ∀ i, (val_main_v20 (F := Ideal) X i).toNat < 8000) (b : Fin 2) (v : Fin 8000)
    (e : Fin 9) :
    val_main_v59 (F := Ideal) X (ix3 b v e)
      = mean (voxelSum X (val_main_v20 (F := Ideal) X) b (BitVec.ofNat 32 v.val)) ⟨e.val / 3, by omega⟩
        * mean (voxelSum X (val_main_v20 (F := Ideal) X) b (BitVec.ofNat 32 v.val)) ⟨e.val % 3, by omega⟩ := by
  have hb : b.val < 2 := b.isLt
  have hv : v.val < 8000 := v.isLt
  have he : e.val < 9 := e.isLt
  -- position ((b, v), e) of the flattened array is position ((b, v), e / 3, e % 3) of the three by three one
  have h59 : idx_main_v59 (ix3 b v e)
      = ix4 b v (⟨e.val / 3, by omega⟩ : Fin 3) (⟨e.val % 3, by omega⟩ : Fin 3) := by
    funext a
    match a with
    | ⟨0, _⟩ => exact Fin.ext (by show ((b.val * 8000 + v.val) * 9 + e.val) / 72000 = b.val; omega)
    | ⟨1, _⟩ => exact Fin.ext (by show ((b.val * 8000 + v.val) * 9 + e.val) / 9 % 8000 = v.val; omega)
    | ⟨2, _⟩ => exact Fin.ext (by show ((b.val * 8000 + v.val) * 9 + e.val) / 3 % 3 = e.val / 3; omega)
    | ⟨3, _⟩ => exact Fin.ext (by show ((b.val * 8000 + v.val) * 9 + e.val) % 3 = e.val % 3; omega)
  have hrow : ∀ (r c : Fin 3), idx_main_v54 (idx_main_v56 (ix4 b v r c)) = ix3 b v r := by
    intro r c
    funext a
    match a with
    | ⟨0, _⟩ => rfl
    | ⟨1, _⟩ => rfl
    | ⟨2, _⟩ => rfl
  have hcol : ∀ (r c : Fin 3), idx_main_v55 (idx_main_v57 (ix4 b v r c)) = ix3 b v c := by
    intro r c
    funext a
    match a with
    | ⟨0, _⟩ => rfl
    | ⟨1, _⟩ => rfl
    | ⟨2, _⟩ => rfl
  rw [val_main_v59_apply, h59, val_main_v58_apply, val_main_v56_apply, val_main_v54_apply, hrow,
    val_main_v57_apply, val_main_v55_apply, hcol, mean_apply X hflat b v, mean_apply X hflat b v]
  rfl

/-- The table of statistics at batch `b`, voxel `v`, statistic `k`. -/
theorem table_apply (hflat : ∀ i, (val_main_v20 (F := Ideal) X i).toNat < 8000) (b : Fin 2) (v : Fin 8000) (k : Fin 12) :
    val_main_v61 (F := Ideal) X (ix3 b v k)
      = stats (voxelSum X (val_main_v20 (F := Ideal) X) b (BitVec.ofNat 32 v.val)) k := by
  unfold val_main_v61
  by_cases hk : k.val < 3
  · -- a column below 3 lies in the first piece, the means, at the same coordinates
    refine (concatenate_pair_apply_left (2 : Fin S2x8000x12.rank) (val_main_v51 (F := Ideal) X)
      (val_main_v60 (F := Ideal) X) _ (ix3 b v k) rfl (ix3 b v (⟨k.val, hk⟩ : Fin 3)) ?_).trans ?_
    · intro a
      match a with
      | ⟨0, _⟩ => rfl
      | ⟨1, _⟩ => rfl
      | ⟨2, _⟩ => rfl
    · rw [mean_apply X hflat b v ⟨k.val, hk⟩]
      unfold stats
      rw [dif_pos hk]
  · -- a column from 3 on lies in the second piece, the covariances, three columns earlier
    have hk9 : k.val - 3 < 9 := by omega
    have hidx : idx_main_v52 (ix3 b v (⟨k.val - 3, hk9⟩ : Fin 9)) = ix3 b v (0 : Fin 1) := by
      funext a
      match a with
      | ⟨0, _⟩ => rfl
      | ⟨1, _⟩ => rfl
      | ⟨2, _⟩ => rfl
    refine (concatenate_pair_apply_right (2 : Fin S2x8000x12.rank) (val_main_v51 (F := Ideal) X)
      (val_main_v60 (F := Ideal) X) _ (ix3 b v k) rfl rfl (ix3 b v (⟨k.val - 3, hk9⟩ : Fin 9)) ?_ ?_).trans ?_
    · intro a ha
      match a, ha with
      | ⟨0, _⟩, _ => rfl
      | ⟨1, _⟩, _ => rfl
      | ⟨2, _⟩, ha => exact absurd rfl ha
    · show k.val - 3 + 3 = k.val
      omega
    · rw [val_main_v60_apply, val_main_v53_apply, SegSums.prodSum_apply X hflat b v ⟨k.val - 3, hk9⟩,
        val_main_v52_apply, hidx, divisor_apply X hflat b v, meanProd_apply X hflat b v ⟨k.val - 3, hk9⟩]
      unfold stats
      rw [dif_neg hk]
      -- the product sum of column k is moment 4 + (k - 3) = k + 1
      have h4 : (⟨4 + (k.val - 3), by omega⟩ : Fin 13) = ⟨k.val + 1, by omega⟩ :=
        Fin.ext (by show 4 + (k.val - 3) = k.val + 1; omega)
      generalize voxelSum X (val_main_v20 (F := Ideal) X) b (BitVec.ofNat 32 v.val) = a
      show Ideal.div (a ⟨4 + (k.val - 3), _⟩) (divisor a) - _ = _
      rw [h4]

/-! ## The guarded read of the table

The read first raises a negative row number by 8000, then asks whether the row number lies in `[0, 7999]`, reads the
row whose number is the row number clamped into that range, and keeps it where the answer is yes. A sampled voxel word
is below 8000: it is not raised, the answer is yes, and the clamp leaves it. -/

/-- The sampled voxel word with a unit axis appended. -/
private theorem key3_apply (b : Fin 2) (q : Fin 512) :
    val_main_v63 (F := Ideal) X I (ix3 b q (0 : Fin 1)) = val_main_v62 (F := Ideal) X I (ix2 b q) := by
  have hidx : idx_main_v63 (ix3 b q (0 : Fin 1)) = ix2 b q := by
    funext a
    match a with
    | ⟨0, _⟩ => rfl
    | ⟨1, _⟩ => rfl
  rw [val_main_v63_apply, hidx]

/-- A sampled voxel word is not negative, so the row number is the word itself. -/
private theorem row_apply (hkey : ∀ i, (val_main_v62 (F := Ideal) X I i).toNat < 8000) (b : Fin 2) (q : Fin 512) :
    val_main_call2_v4 (F := Ideal) X I (ix3 b q (0 : Fin 1)) = val_main_v62 (F := Ideal) X I (ix2 b q) := by
  rw [val_main_call2_v4_apply, val_main_call2_v1_apply, val_main_call2_v0_apply, val_main_call2_c_apply,
    key3_apply X I b q, Cert.Words.small_not_neg _ (hkey (ix2 b q)), select_zero]

/-- The row number lies in `[0, 7999]` at every position. -/
private theorem inRange_apply (hkey : ∀ i, (val_main_v62 (F := Ideal) X I i).toNat < 8000) (j : S2x512x1.Idx) :
    val_main_call2_v10 (F := Ideal) X I j = 1#1 := by
  obtain ⟨b, q, z, rfl⟩ : ∃ (b : Fin 2) (q : Fin 512) (z : Fin 1), j = ix3 b q z := ⟨_, _, _, eq_ix3 j⟩
  obtain rfl : z = 0 := Subsingleton.elim _ _
  obtain ⟨h1, h2⟩ := Cert.Words.small_inRange _ (hkey (ix2 b q))
  rw [val_main_call2_v10_apply, val_main_call2_v6_apply, val_main_call2_v9_apply, row_apply X I hkey b q,
    val_main_call2_v5_apply, val_main_call2_c_2_apply, val_main_call2_v8_apply, val_main_call2_v7_apply,
    val_main_call2_c_1_apply, h1, h2]
  decide

/-- So the answer, taken over the unit axis, is yes at every sampled position. -/
private theorem mask_apply (hkey : ∀ i, (val_main_v62 (F := Ideal) X I i).toNat < 8000) (j : S2x512.Idx) :
    val_main_call2_v11 (F := Ideal) X I j = 1#1 := by
  unfold val_main_call2_v11
  exact Cert.MaskAll.reduce_andi_of_all _ _ _ _ (inRange_apply X I hkey) (fun _ => rfl) _

/-- The row read at sampled position `q` of batch `b` is the table's row of that batch whose number is the sampled
    voxel word's value: clamping a number below 8000 into `[0, 7999]` leaves it. -/
private theorem gathered_apply (hkey : ∀ i, (val_main_v62 (F := Ideal) X I i).toNat < 8000) (b : Fin 2) (q : Fin 512)
    (k : Fin 12) :
    val_main_call2_v12 (F := Ideal) X I (ix3 b q k)
      = val_main_v61 (F := Ideal) X (ix3 b ⟨(val_main_v62 (F := Ideal) X I (ix2 b q)).toNat, hkey (ix2 b q)⟩ k) := by
  unfold val_main_call2_v12
  rw [Cert.GatherRead.gather_batchTakeRow_apply (by decide) gather_S2x8000x12_S2x512x1_S2x512x12_2_1_0_0_1_2_1112
    rfl rfl rfl rfl rfl rfl]
  refine congrArg (fun r => val_main_v61 (F := Ideal) X (ix3 b r k)) (Fin.ext ?_)
  show min (val_main_call2_v4 (F := Ideal) X I (ix3 b q (0 : Fin 1))).toInt.toNat (8000 - 1) = _
  rw [row_apply X I hkey b q]
  exact Cert.Words.small_clamp _ (hkey (ix2 b q))

/-- The reference's result is `G` of the points, the points' voxel words and the sampled voxel words. -/
theorem result_eq (hflat : ∀ i, (val_main_v20 (F := Ideal) X i).toNat < 8000)
    (hkey : ∀ i, (val_main_v62 (F := Ideal) X I i).toNat < 8000) :
    val_main_v64 (F := Ideal) X I = G X (val_main_v20 (F := Ideal) X) (val_main_v62 (F := Ideal) X I) := by
  funext i
  obtain ⟨b, q, k, rfl⟩ : ∃ (b : Fin 2) (q : Fin 512) (k : Fin 12), i = ix3 b q k := ⟨_, _, _, eq_ix3 i⟩
  have hidx : idx_main_call2_v13 (ix3 b q k) = ix2 b q := by
    funext a
    match a with
    | ⟨0, _⟩ => rfl
    | ⟨1, _⟩ => rfl
  -- the guard holds, so the result is the row that was read: the statistics of the voxel the word names
  rw [val_main_v64_apply, val_main_call2_v13_apply, hidx, mask_apply X I hkey, select_one,
    gathered_apply X I hkey b q k, table_apply X hflat b _ k, G_apply]
  unfold rowStat
  -- a word made from its own value is the word
  show stats (voxelSum X _ b (BitVec.ofNat 32 (val_main_v62 (F := Ideal) X I (ix2 b q)).toNat)) k = _
  rw [BitVec.ofNat_toNat, BitVec.setWidth_eq]

end Cert.ReferenceIdeal.RefValue

end
-- ==== Proof.HostChain.lean ====
/-
  The kernel's operand arrays are the reference's own terms. Before the region the kernel's program computes,
  from the points, every point's voxel word and, from the sample indices, every sampled position's voxel word by the
  very operations the reference applies; the region's second operand is the first array with a unit axis appended,
  its third operand the second array with a unit axis inserted. So the words the kernel compares are the reference's
  voxel words of the same points and the same sampled positions.
-/
import proofs.«413474_j66005057405413_2_alg».proof.Proof.KernelAccum
import proofs.«413474_j66005057405413_2_alg».proof.Proof.RefRead
import Idealize.ShloMosaic.Lib.StableHlo.Run
import Idealize.ShloMosaic.Lib.Pipeline.Value

noncomputable section

namespace Cert.HostChain

open Cert.KernelIdeal Cert.KernelIdeal.Gen Idealize.ShloMosaic Idealize.ShloMosaic.TcCoe Idealize.ShloMosaic.StableHlo
open Idealize.ShloMosaic.ValueIdx Cert.KernelIdeal.Sums

section AnyFloat

/-! The two operand equations hold at every reading of the floats: the operations are the same text on both sides,
    whatever a float is. -/

variable {F : FTy → Type} [FloatOps F] (mF : (ℓ : Loc nD τ sig) → Buf (Elt F) ℓ)

/-- The points a program is launched with, at the reference's type. -/
abbrev argPtsF (c : Dev nD) : (⟨Cert.ReferenceIdeal.S2x131072x3, .f32⟩ : BufTy).Contents (Elt F) :=
  mF ((c : Thread nD τ).loc main_arg0)

/-- The sample indices a program is launched with, at the reference's type. -/
abbrev argIdxF (c : Dev nD) : (⟨Cert.ReferenceIdeal.S2x512, .i32⟩ : BufTy).Contents (Elt F) :=
  mF ((c : Thread nD τ).loc main_arg1)

set_option maxHeartbeats 8000000 in
/-- The region's second operand: the reference's voxel words with a unit axis appended. -/
theorem secondOperand_eq (c : Dev nD) :
    (V mF c main_v22 : S2x131072x1.Idx → BitVec 32)
      = shapeCast S2x131072x1 (Cert.ReferenceIdeal.ReadP.val_main_v20 (F := F) (argPtsF mF c))
          Facts₀.shapeCasts_S2x131072_S2x131072x1 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  (try simp only [TRef.ofBuf, TRef.toBuf, cast_eq])
  rfl

set_option maxHeartbeats 8000000 in
/-- The region's third operand: the reference's sampled voxel words with a unit axis inserted. -/
theorem thirdOperand_eq (c : Dev nD) :
    (V mF c main_v23 : S2x1x512.Idx → BitVec 32)
      = shapeCast S2x1x512 (Cert.ReferenceIdeal.ReadP.val_main_v62 (F := F) (argPtsF mF c) (argIdxF mF c))
          Facts₀.shapeCasts_S2x512_S2x1x512 := by
  dsimp only [Gen.V]
  simp only [Gen.hostOps0, Gen.hostOps0_1, Gen.hostOps0_2, Gen.hostOps0_3, Gen.hostOps0_4, List.flatten_cons,
    List.flatten_nil, List.append_nil, List.cons_append, List.nil_append]
  after_results
  (try simp only [TRef.ofBuf, TRef.toBuf, cast_eq])
  rfl

end AnyFloat

variable (m : (ℓ : Loc nD τ sig) → Buf (Elt Ideal) ℓ)

/-- The points the kernel's program is launched with, at the reference's type. -/
abbrev argPts (c : Dev nD) : (⟨Cert.ReferenceIdeal.S2x131072x3, .f32⟩ : BufTy).Contents (Elt Ideal) := argPtsF m c

/-- The sample indices the kernel's program is launched with, at the reference's type. -/
abbrev argIdx (c : Dev nD) : (⟨Cert.ReferenceIdeal.S2x512, .i32⟩ : BufTy).Contents (Elt Ideal) := argIdxF m c

/-- The points the region reads are the points launched with. -/
theorem pts_eq (c : Dev nD) : pts m c = argPts m c := V_main_arg0 m c

/-- The words of the points, as the kernel compares them, are the reference's. -/
theorem ptWord_eq (c : Dev nD) :
    ptWord m c = Cert.ReferenceIdeal.ReadP.val_main_v20 (F := Ideal) (argPts m c) := by
  funext i
  show (V m c main_v22 : S2x131072x1.Idx → BitVec 32)
      (ix3 (⟨(i 0).val, (i 0).isLt⟩ : Fin 2) (⟨(i 1).val, (i 1).isLt⟩ : Fin 131072) (0 : Fin 1)) = _
  rw [secondOperand_eq (F := Ideal) m c]
  refine shapeCast_apply _ _ _ i ?_
  rewrite [Shape.rowMajor_val_two, Shape.rowMajor_val_three]
  have h0 : (i 0).val < 2 := (i 0).isLt
  have h1 : (i 1).val < 131072 := (i 1).isLt
  show (i 0).val * 131072 + (i 1).val = ((i 0).val * 131072 + (i 1).val) * 1 + 0
  omega

/-- The sampled words, as the kernel compares them, are the reference's. -/
theorem keyWord_eq (c : Dev nD) :
    keyWord m c = Cert.ReferenceIdeal.ReadP.val_main_v62 (F := Ideal) (argPts m c) (argIdx m c) := by
  funext i
  show (V m c main_v23 : S2x1x512.Idx → BitVec 32)
      (ix3 (⟨(i 0).val, (i 0).isLt⟩ : Fin 2) (0 : Fin 1) (⟨(i 1).val, (i 1).isLt⟩ : Fin 512)) = _
  rw [thirdOperand_eq (F := Ideal) m c]
  refine shapeCast_apply _ _ _ i ?_
  rewrite [Shape.rowMajor_val_two, Shape.rowMajor_val_three]
  have h0 : (i 0).val < 2 := (i 0).isLt
  have h1 : (i 1).val < 512 := (i 1).isLt
  show (i 0).val * 512 + (i 1).val = ((i 0).val * 1 + 0) * 512 + (i 1).val
  omega

end Cert.HostChain

end
-- ==== Proof.FlatRange.lean ====
/-
  A point's voxel word is below 8000: each of its three voxel coordinates is clipped into `[0, 19]`, and the
  word is `(a * 20 + b) * 20 + c` of them.
-/
import proofs.«413474_j66005057405413_2_alg».proof.Proof.RefRead
import proofs.«413474_j66005057405413_2_alg».proof.Proof.Words
import Idealize.ShloMosaic.Lib.ValueIdx

noncomputable section

namespace Cert.ReferenceIdeal.FlatRange

open Cert.ReferenceIdeal Cert.ReferenceIdeal.Gen Cert.ReferenceIdeal.ReadP Idealize.ShloMosaic Idealize.ShloMosaic.ValueIdx

/-- Every entry of the clipped coordinate array is at most `19`: it is the signed minimum of `19` and the
    signed maximum of `0` and the converted coordinate, whatever word the conversion produced. -/
private theorem clipped_le (X : (⟨S2x131072x3, .f32⟩ : BufTy).Contents (Elt Ideal)) (j : S2x131072x3.Idx) :
    (val_main_v8 (F := Ideal) X j).toNat ≤ 19 := by
  -- read the clip at `j`: the two bounds are scalars broadcast over the array, the constants `19` and `0`
  rw [val_main_v8_apply, val_main_call0_v4_apply, val_main_call0_v3_apply, val_main_c_1_apply,
    val_main_call0_v2_apply, val_main_call0_v1_apply, val_main_call0_v0_apply, val_main_c_apply]
  exact Cert.Words.clip_le _

theorem flat_lt (X : (⟨S2x131072x3, .f32⟩ : BufTy).Contents (Elt Ideal)) (i : S2x131072.Idx) :
    (val_main_v20 (F := Ideal) X i).toNat < 8000 := by
  -- read the word at `i`: it is `(a * 20 + b) * 20 + c`, where `a`, `b`, `c` are the entries of the clipped array
  -- in columns 0, 1, 2 of the point `i` (each column sliced out and its unit axis dropped), and both factors `20`
  -- are broadcast scalars
  rw [val_main_v20_apply, val_main_v17_apply, val_main_v15_apply, val_main_v12_apply,
    val_main_v10_apply, val_main_v9_apply, val_main_v11_apply, val_main_c_2_apply,
    val_main_v14_apply, val_main_v13_apply, val_main_v16_apply, val_main_c_3_apply,
    val_main_v19_apply, val_main_v18_apply]
  -- three clipped coordinates combine to a word below 20 * 20 * 20
  exact Cert.Words.combine_lt _ _ _ (clipped_le X _) (clipped_le X _) (clipped_le X _)

end Cert.ReferenceIdeal.FlatRange

end
-- ==== Proof.KeyRange.lean ====
/-
  Under the precondition every sampled voxel word is below 8000. The precondition says every sample index lies in
  `[-131072, 131072)`. The guarded read of the voxel words first raises a negative index by 131072, which brings
  it into `[0, 131071]`, so the guard holds everywhere and the read returns the voxel word of some point of the
  batch, and every point's voxel word is below 8000.
-/
import proofs.«413474_j66005057405413_2_alg».proof.Proof.RefRead
import proofs.«413474_j66005057405413_2_alg».proof.Pre_finite_inputs
import proofs.«413474_j66005057405413_2_alg».proof.Proof.Words
import proofs.«413474_j66005057405413_2_alg».proof.Proof.GatherRead
import proofs.«413474_j66005057405413_2_alg».proof.Proof.FlatRange
import proofs.«413474_j66005057405413_2_alg».proof.Proof.MaskAll
import Idealize.ShloMosaic.Lib.ReduceAll
import Idealize.ShloMosaic.Lib.Affine

noncomputable section

namespace Cert.ReferenceIdeal.KeyRange

open Cert.ReferenceIdeal Cert.ReferenceIdeal.Gen Cert.ReferenceIdeal.ReadP Idealize.ShloMosaic Idealize.ShloMosaic.ValueIdx

variable [Cert.Pre_finite_inputs.Facts]

instance : Subsingleton Cert.Pre_finite_inputs.S_.Idx := ⟨fun a b => funext fun d => d.elim0⟩

variable (X : (⟨S2x131072x3, .f32⟩ : BufTy).Contents (Elt Ideal)) (I : (⟨S2x512, .i32⟩ : BufTy).Contents (Elt Ideal))

/-- The precondition's second half: every sample index is at least `-131072` and below `131072`, as signed words. -/
theorem idx_inRange (hpre : Cert.Pre_finite_inputs.fn (F := Ideal) X I = fun _ => 1#1) (i : S2x512.Idx) :
    IntOp.cmpi .sge (I i) 4294836224#32 = 1#1 ∧ IntOp.cmpi .slt (I i) 131072#32 = 1#1 := by
  have h := congrFun hpre ix0
  dsimp only [Cert.Pre_finite_inputs.fn] at h
  have h2 := (IntOp.andi_eq_one.1 h).2
  have h3 := Host.reduce_andi_all _ _ _ _ ix0 h2 i
  exact IntOp.andi_eq_one.1 h3

/-- With every index in that range, the raised index passes the guard at every position. -/
theorem guard_one (hI : ∀ i : S2x512.Idx, IntOp.cmpi .sge (I i) 4294836224#32 = 1#1 ∧ IntOp.cmpi .slt (I i) 131072#32 = 1#1)
    (j : S2x512x1.Idx) : val_main_call1_v11 (F := Ideal) I j = 1#1 := by
  rw [val_main_call1_v11_apply, val_main_call1_v7_apply, val_main_call1_v10_apply, val_main_call1_v5_apply,
    val_main_call1_v4_apply, val_main_call1_v1_apply, val_main_call1_v3_apply, val_main_call1_v0_apply,
    val_main_call1_v2_apply, val_main_call1_v6_apply, val_main_call1_v9_apply, val_main_call1_v8_apply,
    val_main_call1_c_apply, val_main_call1_c_0_apply, val_main_call1_c_2_apply, val_main_call1_c_1_apply]
  obtain ⟨h1, h2⟩ := Cert.Words.wrapIndex_inRange (I (idx_main_call1_v5 j)) (hI _).1 (hI _).2
  rw [h1, h2]
  decide

/-- Every sampled voxel word is below 8000. -/
theorem key_lt (hpre : Cert.Pre_finite_inputs.fn (F := Ideal) X I = fun _ => 1#1) (i : S2x512.Idx) :
    (val_main_v62 (F := Ideal) X I i).toNat < 8000 := by
  obtain ⟨b, q, rfl⟩ : ∃ (b : Fin 2) (q : Fin 512), i = ix2 b q := ⟨i 0, i 1, eq_ix2 i⟩
  have hmask : val_main_call1_v12 (F := Ideal) I (ix2 b q) = 1#1 := by
    unfold val_main_call1_v12
    exact Cert.MaskAll.reduce_andi_of_all _ _ _ _ (guard_one I (idx_inRange X I hpre)) (fun _ => rfl) _
  rw [val_main_v62_apply, hmask]
  show (val_main_call1_v13 (F := Ideal) X I (ix2 b q)).toNat < 8000
  unfold val_main_call1_v13
  rw [Cert.GatherRead.gather_batchTake_apply (by decide) _ rfl rfl rfl rfl rfl rfl]
  exact Cert.ReferenceIdeal.FlatRange.flat_lt X _

end Cert.ReferenceIdeal.KeyRange

end
-- ==== Proof.lean ====
/-
  Per-voxel mean and covariance of a point cloud, gathered at 512 sampled points per batch: a kernel that, for each
  sampled point, sums the moments of the points sharing its voxel directly (a zero-one match matrix times the matrix
  of moment summands, accumulated over 64 tiles of 2048 points), against a reference that scatters all points into
  16000 voxel segments, forms every voxel's statistics and then reads the sampled voxels' rows.

  Over the extended reals both compute the function `Moments.G`: the statistics of the thirteen sums over the points
  of the batch whose voxel word equals the sampled point's voxel word. The kernel's sums are that by induction over
  the tiles; the reference's segment `8000 b + v` receives exactly batch `b`'s points of voxel `v`, because a voxel
  word is below 8000. Neither side needs finiteness: a product with a zero or a one, and the regrouping of a sum, are
  laws of the extended reals. What IS needed is that every sample index lies in `[-131072, 131072)`, the indices
  the reference's guarded read accepts: then the sampled voxel word is a voxel number, the reference's second guarded
  read is a plain read, and the kernel compares against the same word.
-/
import proofs.«413474_j66005057405413_2_alg».proof.Defs
import proofs.«413474_j66005057405413_2_alg».proof.Proof.Gen.Kernel
import proofs.«413474_j66005057405413_2_alg».proof.Proof.Gen.Kernel.Skeleton
import proofs.«413474_j66005057405413_2_alg».proof.Proof.Gen.Kernel.Launch
import proofs.«413474_j66005057405413_2_alg».proof.Proof.Gen.Kernel.Points
import proofs.«413474_j66005057405413_2_alg».proof.Proof.Gen.Kernel.Frame
import proofs.«413474_j66005057405413_2_alg».proof.Proof.Gen.KernelIdeal
import proofs.«413474_j66005057405413_2_alg».proof.Proof.Gen.KernelIdeal.Skeleton
import proofs.«413474_j66005057405413_2_alg».proof.Proof.Gen.KernelIdeal.Launch
import proofs.«413474_j66005057405413_2_alg».proof.Proof.Gen.KernelIdeal.Points
import proofs.«413474_j66005057405413_2_alg».proof.Proof.Gen.KernelIdeal.Frame
import proofs.«413474_j66005057405413_2_alg».proof.Proof.Gen.ReferenceIdeal
import proofs.«413474_j66005057405413_2_alg».proof.Proof.Gen.Pre_finite_inputs
import proofs.«413474_j66005057405413_2_alg».proof.Proof.Gen.KernelIdeal.Value
import proofs.«413474_j66005057405413_2_alg».proof.Proof.RefRead
import proofs.«413474_j66005057405413_2_alg».proof.Proof.RefRun
import proofs.«413474_j66005057405413_2_alg».proof.Proof.KernelValue
import proofs.«413474_j66005057405413_2_alg».proof.Proof.RefValue
import proofs.«413474_j66005057405413_2_alg».proof.Proof.HostChain
import proofs.«413474_j66005057405413_2_alg».proof.Proof.KeyRange
import proofs.«413474_j66005057405413_2_alg».proof.Proof.FlatRange
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_reference : Cert.frame_ReferenceIdeal := fun m ρ _ =>
  (θ_run Cert.ReferenceIdeal.defs _ _).mono (fun _ h c => (h c).2) (Cert.ReferenceIdeal.RunP.run (F := Ideal) m ρ)

/-- The idealization rewrote nothing. -/
theorem preserves : Cert.preserves_Kernel_KernelIdeal := trivial

/-- Both runs end at `G` of the points, the points' voxel words and the sampled voxel words: the kernel's operands
    are the reference's own terms of the same arguments, and under the precondition's index range the reference's
    guarded reads are plain reads. -/
theorem algebraic : Cert.algebraic_KernelIdeal_ReferenceIdeal := by
  intro m ρ m' ρ' hpre hagree
  refine ⟨fun c => Cert.Moments.G (Cert.KernelIdeal.Sums.pts m c) (Cert.KernelIdeal.Sums.ptWord m c)
      (Cert.KernelIdeal.Sums.keyWord m c), Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  beta_reduce
  rw [(hagree c).1, (hagree c).2,
    Cert.HostChain.pts_eq, Cert.HostChain.ptWord_eq, Cert.HostChain.keyWord_eq]
  exact Cert.ReferenceIdeal.RefValue.result_eq _ _ (fun i => Cert.ReferenceIdeal.FlatRange.flat_lt _ i)
    (fun i => Cert.ReferenceIdeal.KeyRange.key_lt _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
